-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v12_1)) (v3 : (c : Dev Cert.KernelIdeal.nD) → Buf (Elt Ideal) ((c.tc : Thread Cert.KernelIdeal.nD Cert.KernelIdeal.τ).loc Cert.KernelIdeal.main_arg2)) (v4 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_v12_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S16x2x299x299x8 : Shape := ⟨5, ![16, 2, 299, 299, 8]⟩
abbrev S16x299x299x4 : Shape := ⟨4, ![16, 299, 299, 4]⟩
abbrev S16x1x299x299x8 : Shape := ⟨5, ![16, 1, 299, 299, 8]⟩
abbrev S16x299x299x8 : Shape := ⟨4, ![16, 299, 299, 8]⟩
abbrev S_ : Shape := ⟨0, ![]⟩

class Facts : Prop where
  slices_S16x2x299x299x8_S16x1x299x299x8_0_1_0_0_0 : S16x2x299x299x8.Slices ![0, 1, 0, 0, 0] S16x1x299x299x8
  shapeCasts_S16x1x299x299x8_S16x299x299x8 : S16x1x299x299x8.ShapeCasts S16x299x299x8
  bcast_S_S200000x4 : S_.BroadcastsInDim S200000x4 (![] : Fin 0 → Fin S200000x4.rank)
  reducesTo_S200000x4_S_d0_1 : S200000x4.ReducesTo [0, 1] S_
  h_S_ : 0 < S_.numel
  bcast_S_S16x2x299x299x8 : S_.BroadcastsInDim S16x2x299x299x8 (![] : Fin 0 → Fin S16x2x299x299x8.rank)
  reducesTo_S16x2x299x299x8_S_d0_1_2_3_4 : S16x2x299x299x8.ReducesTo [0, 1, 2, 3, 4] S_
  bcast_S_S16x299x299x4 : S_.BroadcastsInDim S16x299x299x4 (![] : Fin 0 → Fin S16x299x299x4.rank)
  reducesTo_S16x299x299x4_S_d0_1_2_3 : S16x299x299x4.ReducesTo [0, 1, 2, 3] S_
  bcast_S_S16x299x299x8 : S_.BroadcastsInDim S16x299x299x8 (![] : Fin 0 → Fin S16x299x299x8.rank)
  reducesTo_S16x299x299x8_S_d0_1_2_3 : S16x299x299x8.ReducesTo [0, 1, 2, 3] S_

variable [Facts]

def fn_part1 {F : FTy → Type} [FloatOps F] (main_v2 : IVec S16x299x299x8 32) (main_v16 : IVec S_ 1) (main_c_4 : IVec S_ 32) : IVec S_ 1 :=
  let main_v17 : IVec S16x299x299x8 32 := broadcastInDim S16x299x299x8 ![] bcast_S_S16x299x299x8 main_c_4
  let main_v18 : IVec S16x299x299x8 1 := cmpi .sge main_v2 main_v17
  let main_c_5 : IVec S_ 32 := constantI S_ 32 200000#32
  let main_v19 : IVec S16x299x299x8 32 := broadcastInDim S16x299x299x8 ![] bcast_S_S16x299x299x8 main_c_5
  let main_v20 : IVec S16x299x299x8 1 := cmpi .slt main_v2 main_v19
  let main_v21 : IVec S16x299x299x8 1 := andi main_v18 main_v20
  let main_c_6 : IVec S_ 1 := constantI S_ 1 1#1
  let main_v22 : IVec S_ 1 := (fun x v => Host.reduce IntOp.andi x v reducesTo_S16x299x299x8_S_d0_1_2_3 h_S_) main_v21 main_c_6
  let main_v23 : IVec S_ 1 := andi main_v16 main_v22
  main_v23

def fn {F : FTy → Type} [FloatOps F] (main_arg0 : FVec F S200000x4 .f32) (main_arg1 : FVec F S16x2x299x299x8 .f32) (main_arg2 : FVec F S16x299x299x4 .f32) : IVec S_ 1 :=
  let main_v0 : FVec F S16x1x299x299x8 .f32 := (extractStridedSlice S16x1x299x299x8 ![0, 1, 0, 0, 0] · slices_S16x2x299x299x8_S16x1x299x299x8_0_1_0_0_0) main_arg1
  let main_v1 : FVec F S16x299x299x8 .f32 := shapeCast S16x299x299x8 main_v0 shapeCasts_S16x1x299x299x8_S16x299x299x8
  let main_v2 : IVec S16x299x299x8 32 := fptosi 32 main_v1
  let main_v3 : FVec F S200000x4 .f32 := Host.absf main_arg0
  let main_cst : FVec F S_ .f32 := constant S_ .f32 0x7F800000#32
  let main_v4 : FVec F S200000x4 .f32 := broadcastInDim S200000x4 ![] bcast_S_S200000x4 main_cst
  let main_v5 : IVec S200000x4 1 := cmpf .olt main_v3 main_v4
  let main_c : IVec S_ 1 := constantI S_ 1 1#1
  let main_v6 : IVec S_ 1 := (fun x v => Host.reduce IntOp.andi x v reducesTo_S200000x4_S_d0_1 h_S_) main_v5 main_c
  let main_v7 : FVec F S16x2x299x299x8 .f32 := Host.absf main_arg1
  let main_cst_0 : FVec F S_ .f32 := constant S_ .f32 0x7F800000#32
  let main_v8 : FVec F S16x2x299x299x8 .f32 := broadcastInDim S16x2x299x299x8 ![] bcast_S_S16x2x299x299x8 main_cst_0
  let main_v9 : IVec S16x2x299x299x8 1 := cmpf .olt main_v7 main_v8
  let main_c_1 : IVec S_ 1 := constantI S_ 1 1#1
  let main_v10 : IVec S_ 1 := (fun x v => Host.reduce IntOp.andi x v reducesTo_S16x2x299x299x8_S_d0_1_2_3_4 h_S_) main_v9 main_c_1
  let main_v11 : IVec S_ 1 := andi main_v6 main_v10
  let main_v12 : FVec F S16x299x299x4 .f32 := Host.absf main_arg2
  let main_cst_2 : FVec F S_ .f32 := constant S_ .f32 0x7F800000#32
  let main_v13 : FVec F S16x299x299x4 .f32 := broadcastInDim S16x299x299x4 ![] bcast_S_S16x299x299x4 main_cst_2
  let main_v14 : IVec S16x299x299x4 1 := cmpf .olt main_v12 main_v13
  let main_c_3 : IVec S_ 1 := constantI S_ 1 1#1
  let main_v15 : IVec S_ 1 := (fun x v => Host.reduce IntOp.andi x v reducesTo_S16x299x299x4_S_d0_1_2_3 h_S_) main_v14 main_c_3
  let main_v16 : IVec S_ 1 := andi main_v11 main_v15
  let main_c_4 : IVec S_ 32 := constantI S_ 32 4294767296#32
  fn_part1 (F := F) main_v2 main_v16 main_c_4
-- ==== Kernel.lean ====
abbrev S200000x4 : Shape := ⟨2, ![200000, 4]⟩
abbrev S16x2x299x299x8 : Shape := ⟨5, ![16, 2, 299, 299, 8]⟩
abbrev S16x299x299x4 : Shape := ⟨4, ![16, 299, 299, 4]⟩
abbrev S16x1x299x299x8 : Shape := ⟨5, ![16, 1, 299, 299, 8]⟩
abbrev S16x299x299x8 : Shape := ⟨4, ![16, 299, 299, 8]⟩
abbrev S_ : Shape := ⟨0, ![]⟩
abbrev S16x299x299x8x1 : Shape := ⟨5, ![16, 299, 299, 8, 1]⟩
abbrev S1 : Shape := ⟨1, ![1]⟩
abbrev S1x1x1x1x1 : Shape := ⟨5, ![1, 1, 1, 1, 1]⟩
abbrev S16x299x299x8x4 : Shape := ⟨5, ![16, 299, 299, 8, 4]⟩
abbrev S16x4x299x299 : Shape := ⟨4, ![16, 4, 299, 299]⟩
abbrev S16x3x299x299 : Shape := ⟨4, ![16, 3, 299, 299]⟩
abbrev S1x4x299x299 : Shape := ⟨4, ![1, 4, 299, 299]⟩
abbrev S1x3x299x299 : Shape := ⟨4, ![1, 3, 299, 299]⟩
abbrev S1x1x299x299 : Shape := ⟨4, ![1, 1, 299, 299]⟩
abbrev S299x299 : Shape := ⟨2, ![299, 299]⟩

abbrev nBuf : Space → Nat
  | .hbm => 42
  | .vmem => 10
  | .smem => 0
  | _ => 0

abbrev bufTy : (tb : Table) → Fin (tcTables nBuf tb) → BufTy
  | .hbm, ⟨0, _⟩ => ⟨S200000x4, .f32⟩
  | .hbm, ⟨1, _⟩ => ⟨S16x2x299x299x8, .f32⟩
  | .hbm, ⟨2, _⟩ => ⟨S16x299x299x4, .f32⟩
  | .hbm, ⟨3, _⟩ => ⟨S16x1x299x299x8, .f32⟩
  | .hbm, ⟨4, _⟩ => ⟨S16x299x299x8, .f32⟩
  | .hbm, ⟨5, _⟩ => ⟨S16x1x299x299x8, .f32⟩
  | .hbm, ⟨6, _⟩ => ⟨S16x299x299x8, .f32⟩
  | .hbm, ⟨7, _⟩ => ⟨S16x299x299x8, .i32⟩
  | .hbm, ⟨8, _⟩ => ⟨S_, .i32⟩
  | .hbm, ⟨9, _⟩ => ⟨S16x299x299x8, .i32⟩
  | .hbm, ⟨10, _⟩ => ⟨S16x299x299x8, .i1⟩
  | .hbm, ⟨11, _⟩ => ⟨S_, .i32⟩
  | .hbm, ⟨12, _⟩ => ⟨S16x299x299x8, .i32⟩
  | .hbm, ⟨13, _⟩ => ⟨S16x299x299x8, .i32⟩
  | .hbm, ⟨14, _⟩ => ⟨S16x299x299x8, .i32⟩
  | .hbm, ⟨15, _⟩ => ⟨S16x299x299x8x1, .i32⟩
  | .hbm, ⟨16, _⟩ => ⟨S1, .i32⟩
  | .hbm, ⟨17, _⟩ => ⟨S_, .i32⟩
  | .hbm, ⟨18, _⟩ => ⟨S16x299x299x8x1, .i32⟩
  | .hbm, ⟨19, _⟩ => ⟨S16x299x299x8x1, .i1⟩
  | .hbm, ⟨20, _⟩ => ⟨S1x1x1x1x1, .i32⟩
  | .hbm, ⟨21, _⟩ => ⟨S16x299x299x8x1, .i32⟩
  | .hbm, ⟨22, _⟩ => ⟨S16x299x299x8x1, .i1⟩
  | .hbm, ⟨23, _⟩ => ⟨S16x299x299x8x1, .i1⟩
  | .hbm, ⟨24, _⟩ => ⟨S_, .i1⟩
  | .hbm, ⟨25, _⟩ => ⟨S16x299x299x8, .i1⟩
  | .hbm, ⟨26, _⟩ => ⟨S16x299x299x8x4, .f32⟩
  | .hbm, ⟨27, _⟩ => ⟨S16x299x299x8x4, .i1⟩
  | .hbm, ⟨28, _⟩ => ⟨S_, .f32⟩
  | .hbm, ⟨29, _⟩ => ⟨S16x299x299x8x4, .f32⟩
  | .hbm, ⟨30, _⟩ => ⟨S16x299x299x8x4, .f32⟩
  | .hbm, ⟨31, _⟩ => ⟨S16x299x299x8x1, .f32⟩
  | .hbm, ⟨32, _⟩ => ⟨S16x299x299x8x4, .f32⟩
  | .hbm, ⟨33, _⟩ => ⟨S16x299x299x8x4, .f32⟩
  | .hbm, ⟨34, _⟩ => ⟨S_, .f32⟩
  | .hbm, ⟨35, _⟩ => ⟨S16x299x299x4, .f32⟩
  | .hbm, ⟨36, _⟩ => ⟨S16x4x299x299, .f32⟩
  | .hbm, ⟨37, _⟩ => ⟨S16x4x299x299, .f32⟩
  | .hbm, ⟨38, _⟩ => ⟨S16x4x299x299, .f32⟩
  | .hbm, ⟨39, _⟩ => ⟨S16x3x299x299, .f32⟩
  | .hbm, ⟨40, _⟩ => ⟨S16x3x299x299, .f32⟩
  | .hbm, ⟨41, _⟩ => ⟨S16x299x299x4, .f32⟩
  | .local _ .vmem, ⟨0, _⟩ => ⟨S1x4x299x299, .f32⟩
  | .local _ .vmem, ⟨1, _⟩ => ⟨S1x4x299x299, .f32⟩
  | .local _ .vmem, ⟨2, _⟩ => ⟨S1x4x299x299, .f32⟩
  | .local _ .vmem, ⟨3, _⟩ => ⟨S1x4x299x299, .f32⟩
  | .local _ .vmem, ⟨4, _⟩ => ⟨S1x4x299x299, .f32⟩
  | .local _ .vmem, ⟨5, _⟩ => ⟨S1x4x299x299, .f32⟩
  | .local _ .vmem, ⟨6, _⟩ => ⟨S1x3x299x299, .f32⟩
  | .local _ .vmem, ⟨7, _⟩ => ⟨S1x3x299x299, .f32⟩
  | .local _ .vmem, ⟨8, _⟩ => ⟨S1x3x299x299, .f32⟩
  | .local _ .vmem, ⟨9, _⟩ => ⟨S1x3x299x299, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v12_2 : Ref sig .tc := ⟨.hbm, 40, rfl⟩
abbrev main_v13 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x299x299 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x299x299 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x299x299 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x299x299 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x299x299 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16x2x299x299x8_S16x1x299x299x8_0_0_0_0_0 : S16x2x299x299x8.Slices ![0, 0, 0, 0, 0] S16x1x299x299x8
  shapeCasts_S16x1x299x299x8_S16x299x299x8 : S16x1x299x299x8.ShapeCasts S16x299x299x8
  slices_S16x2x299x299x8_S16x1x299x299x8_0_1_0_0_0 : S16x2x299x299x8.Slices ![0, 1, 0, 0, 0] S16x1x299x299x8
  bcast_S_S16x299x299x8 : S_.BroadcastsInDim S16x299x299x8 (![] : Fin 0 → Fin S16x299x299x8.rank)
  bcast_S16x299x299x8_S16x299x299x8x1_0_1_2_3 : S16x299x299x8.BroadcastsInDim S16x299x299x8x1 (![0, 1, 2, 3] : Fin 4 → Fin S16x299x299x8x1.rank)
  bcast_S_S16x299x299x8x1 : S_.BroadcastsInDim S16x299x299x8x1 (![] : Fin 0 → Fin S16x299x299x8x1.rank)
  bcast_S1_S1x1x1x1x1_4 : S1.BroadcastsInDim S1x1x1x1x1 (![4] : Fin 1 → Fin S1x1x1x1x1.rank)
  bcast_S1x1x1x1x1_S16x299x299x8x1_0_1_2_3_4 : S1x1x1x1x1.BroadcastsInDim S16x299x299x8x1 (![0, 1, 2, 3, 4] : Fin 5 → Fin S16x299x299x8x1.rank)
  reducesTo_S16x299x299x8x1_S16x299x299x8_d4 : S16x299x299x8x1.ReducesTo [4] S16x299x299x8
  h_S_ : 0 < S_.numel
  bcast_S16x299x299x8_S16x299x299x8x4_0_1_2_3 : S16x299x299x8.BroadcastsInDim S16x299x299x8x4 (![0, 1, 2, 3] : Fin 4 → Fin S16x299x299x8x4.rank)
  bcast_S_S16x299x299x8x4 : S_.BroadcastsInDim S16x299x299x8x4 (![] : Fin 0 → Fin S16x299x299x8x4.rank)
  bcast_S16x299x299x8x1_S16x299x299x8x4_0_1_2_3_4 : S16x299x299x8x1.BroadcastsInDim S16x299x299x8x4 (![0, 1, 2, 3, 4] : Fin 5 → Fin S16x299x299x8x4.rank)
  reducesTo_S16x299x299x8x4_S16x299x299x4_d3 : S16x299x299x8x4.ReducesTo [3] S16x299x299x4
  transposes_S16x299x299x4_S16x4x299x299_0_3_1_2 : S16x299x299x4.Transposes [0, 3, 1, 2] S16x4x299x299
  inb_S1x4x299x299_S1x1x299x299_0_0_0_0 : ∀ a, (![0, 0, 0, 0] : Fin 4 → Nat) a + S1x1x299x299.size a ≤ S1x4x299x299.size a
  h_S1x1x299x299 : 0 < S1x1x299x299.numel
  shapeCasts_S1x1x299x299_S299x299 : S1x1x299x299.ShapeCasts S299x299
  inb_S1x4x299x299_S1x1x299x299_0_1_0_0 : ∀ a, (![0, 1, 0, 0] : Fin 4 → Nat) a + S1x1x299x299.size a ≤ S1x4x299x299.size a
  inb_S1x4x299x299_S1x1x299x299_0_2_0_0 : ∀ a, (![0, 2, 0, 0] : Fin 4 → Nat) a + S1x1x299x299.size a ≤ S1x4x299x299.size a
  inb_S1x4x299x299_S1x1x299x299_0_3_0_0 : ∀ a, (![0, 3, 0, 0] : Fin 4 → Nat) a + S1x1x299x299.size a ≤ S1x4x299x299.size a
  shapeCasts_S299x299_S1x1x299x299 : S299x299.ShapeCasts S1x1x299x299
  inb_S1x3x299x299_S1x1x299x299_0_0_0_0 : ∀ a, (![0, 0, 0, 0] : Fin 4 → Nat) a + S1x1x299x299.size a ≤ S1x3x299x299.size a
  inb_S1x3x299x299_S1x1x299x299_0_1_0_0 : ∀ a, (![0, 1, 0, 0] : Fin 4 → Nat) a + S1x1x299x299.size a ≤ S1x3x299x299.size a
  inb_S1x3x299x299_S1x1x299x299_0_2_0_0 : ∀ a, (![0, 2, 0, 0] : Fin 4 → Nat) a + S1x1x299x299.size a ≤ S1x3x299x299.size a
  transposes_S16x4x299x299_S16x299x299x4_0_2_3_1 : S16x4x299x299.Transposes [0, 2, 3, 1] S16x299x299x4
  gather_S200000x4_S16x299x299x8x1_S16x299x299x8x4_4_0_n_n_0_4_14_wf : GatherDims.WF S200000x4 S16x299x299x8x1 S16x299x299x8x4 [4] [0] [] [0] [] 4 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x299x299.size a ≤ S16x4x299x299.size a
  hwx0_0 : ∀ i : grid0.Coords, EltTy.bits .f32 = 32 ∨ (Rect.block (s := S16x4x299x299) S1x4x299x299.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x299x299.size a ≤ S16x4x299x299.size a
  hwx0_1 : ∀ i : grid0.Coords, EltTy.bits .f32 = 32 ∨ (Rect.block (s := S16x4x299x299) S1x4x299x299.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x299x299.size a ≤ S16x4x299x299.size a
  hwx0_2 : ∀ i : grid0.Coords, EltTy.bits .f32 = 32 ∨ (Rect.block (s := S16x4x299x299) S1x4x299x299.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x299x299.size a ≤ S16x3x299x299.size a
  hwx0_3 : ∀ i : grid0.Coords, EltTy.bits .f32 = 32 ∨ (Rect.block (s := S16x3x299x299) S1x3x299x299.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x299x299.size a ≤ S16x3x299x299.size a
  hwx0_4 : ∀ i : grid0.Coords, EltTy.bits .f32 = 32 ∨ (Rect.block (s := S16x3x299x299) S1x3x299x299.size (cc0_transform_4 i) (hinb0_4 i)).WholeWords (EltTy.packing .f32)

variable [Facts₀]

def gather_S200000x4_S16x299x299x8x1_S16x299x299x8x4_4_0_n_n_0_4_14 : GatherDims S200000x4 S16x299x299x8x1 S16x299x299x8x4 where
  offsetDims := [4]
  collapsedSliceDims := [0]
  operandBatchingDims := []
  startIndicesBatchingDims := []
  startIndexMap := [0]
  indexVectorDim := 4
  sliceSizes := ![1, 4]
  wf := gather_S200000x4_S16x299x299x8x1_S16x299x299x8x4_4_0_n_n_0_4_14_wf

abbrev win0_0 : Pipeline.Window sig grid0 :=
  Pipeline.Window.ofSpec (Memref.whole main_v10) S1x4x299x299.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x4x299x299.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S1x4x299x299.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S1x3x299x299.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_2) S1x3x299x299.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S200000x4 : Shape := ⟨2, ![200000, 4]⟩
abbrev S16x2x299x299x8 : Shape := ⟨5, ![16, 2, 299, 299, 8]⟩
abbrev S16x299x299x4 : Shape := ⟨4, ![16, 299, 299, 4]⟩
abbrev S16x1x299x299x8 : Shape := ⟨5, ![16, 1, 299, 299, 8]⟩
abbrev S16x299x299x8 : Shape := ⟨4, ![16, 299, 299, 8]⟩
abbrev S_ : Shape := ⟨0, ![]⟩
abbrev S16x299x299x8x1 : Shape := ⟨5, ![16, 299, 299, 8, 1]⟩
abbrev S16x299x299x8x4 : Shape := ⟨5, ![16, 299, 299, 8, 4]⟩
abbrev S16x299x299x1 : Shape := ⟨4, ![16, 299, 299, 1]⟩
abbrev S16x299x299x3 : Shape := ⟨4, ![16, 299, 299, 3]⟩
abbrev S16x4x299x299 : Shape := ⟨4, ![16, 4, 299, 299]⟩
abbrev S16x1x299x299 : Shape := ⟨4, ![16, 1, 299, 299]⟩
abbrev S16x3x299x299 : Shape := ⟨4, ![16, 3, 299, 299]⟩

abbrev nBuf : Space → Nat
  | .hbm => 70
  | .vmem => 0
  | .smem => 0
  | _ => 0

abbrev bufTy : (tb : Table) → Fin (tcTables nBuf tb) → BufTy
  | .hbm, ⟨0, _⟩ => ⟨S200000x4, .f32⟩
  | .hbm, ⟨1, _⟩ => ⟨S16x2x299x299x8, .f32⟩
  | .hbm, ⟨2, _⟩ => ⟨S16x299x299x4, .f32⟩
  | .hbm, ⟨3, _⟩ => ⟨S16x1x299x299x8, .f32⟩
  | .hbm, ⟨4, _⟩ => ⟨S16x299x299x8, .f32⟩
  | .hbm, ⟨5, _⟩ => ⟨S16x1x299x299x8, .f32⟩
  | .hbm, ⟨6, _⟩ => ⟨S16x299x299x8, .f32⟩
  | .hbm, ⟨7, _⟩ => ⟨S16x299x299x8, .i32⟩
  | .hbm, ⟨8, _⟩ => ⟨S_, .i32⟩
  | .hbm, ⟨9, _⟩ => ⟨S16x299x299x8, .i32⟩
  | .hbm, ⟨10, _⟩ => ⟨S16x299x299x8, .i1⟩
  | .hbm, ⟨11, _⟩ => ⟨S_, .i32⟩
  | .hbm, ⟨12, _⟩ => ⟨S16x299x299x8, .i32⟩
  | .hbm, ⟨13, _⟩ => ⟨S16x299x299x8, .i32⟩
  | .hbm, ⟨14, _⟩ => ⟨S16x299x299x8, .i32⟩
  | .hbm, ⟨15, _⟩ => ⟨S16x299x299x8x1, .i32⟩
  | .hbm, ⟨16, _⟩ => ⟨S16x299x299x8x4, .f32⟩
  | .hbm, ⟨17, _⟩ => ⟨S16x299x299x8x1, .f32⟩
  | .hbm, ⟨18, _⟩ => ⟨S16x299x299x8x4, .f32⟩
  | .hbm, ⟨19, _⟩ => ⟨S16x299x299x8x4, .f32⟩
  | .hbm, ⟨20, _⟩ => ⟨S_, .f32⟩
  | .hbm, ⟨21, _⟩ => ⟨S16x299x299x4, .f32⟩
  | .hbm, ⟨22, _⟩ => ⟨S16x299x299x1, .f32⟩
  | .hbm, ⟨23, _⟩ => ⟨S_, .f32⟩
  | .hbm, ⟨24, _⟩ => ⟨S16x299x299x1, .f32⟩
  | .hbm, ⟨25, _⟩ => ⟨S16x299x299x1, .f32⟩
  | .hbm, ⟨26, _⟩ => ⟨S16x299x299x1, .f32⟩
  | .hbm, ⟨27, _⟩ => ⟨S16x299x299x3, .f32⟩
  | .hbm, ⟨28, _⟩ => ⟨S16x299x299x3, .f32⟩
  | .hbm, ⟨29, _⟩ => ⟨S16x299x299x3, .f32⟩
  | .hbm, ⟨30, _⟩ => ⟨S16x299x299x3, .f32⟩
  | .hbm, ⟨31, _⟩ => ⟨S16x299x299x3, .f32⟩
  | .hbm, ⟨32, _⟩ => ⟨S_, .f32⟩
  | .hbm, ⟨33, _⟩ => ⟨S16x299x299x1, .f32⟩
  | .hbm, ⟨34, _⟩ => ⟨S16x299x299x1, .i1⟩
  | .hbm, ⟨35, _⟩ => ⟨S_, .f32⟩
  | .hbm, ⟨36, _⟩ => ⟨S16x299x299x3, .f32⟩
  | .hbm, ⟨37, _⟩ => ⟨S16x299x299x3, .i1⟩
  | .hbm, ⟨38, _⟩ => ⟨S16x299x299x3, .f32⟩
  | .hbm, ⟨39, _⟩ => ⟨S16x299x299x4, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x299x299x4, .f32⟩
  | .hbm, ⟨44, _⟩ => ⟨S16x299x299x4, .f32⟩
  | .hbm, ⟨45, _⟩ => ⟨S_, .f32⟩
  | .hbm, ⟨46, _⟩ => ⟨S16x299x299x4, .f32⟩
  | .hbm, ⟨47, _⟩ => ⟨S16x299x299x4, .f32⟩
  | .hbm, ⟨48, _⟩ => ⟨S16x4x299x299, .f32⟩
  | .hbm, ⟨49, _⟩ => ⟨S16x4x299x299, .f32⟩
  | .hbm, ⟨50, _⟩ => ⟨S16x1x299x299, .f32⟩
  | .hbm, ⟨51, _⟩ => ⟨S_, .f32⟩
  | .hbm, ⟨52, _⟩ => ⟨S16x1x299x299, .f32⟩
  | .hbm, ⟨53, _⟩ => ⟨S16x1x299x299, .i1⟩
  | .hbm, ⟨54, _⟩ => ⟨S16x3x299x299, .f32⟩
  | .hbm, ⟨55, _⟩ => ⟨S16x3x299x299, .f32⟩
  | .hbm, ⟨56, _⟩ => ⟨S_, .f32⟩
  | .hbm, ⟨57, _⟩ => ⟨S16x3x299x299, .f32⟩
  | .hbm, ⟨58, _⟩ => ⟨S16x3x299x299, .i1⟩
  | .hbm, ⟨59, _⟩ => ⟨S16x3x299x299, .f32⟩
  | .hbm, ⟨60, _⟩ => ⟨S16x1x299x299, .f32⟩
  | .hbm, ⟨61, _⟩ => ⟨S_, .f32⟩
  | .hbm, ⟨62, _⟩ => ⟨S16x1x299x299, .f32⟩
  | .hbm, ⟨63, _⟩ => ⟨S16x1x299x299, .i1⟩
  | .hbm, ⟨64, _⟩ => ⟨S16x3x299x299, .f32⟩
  | .hbm, ⟨65, _⟩ => ⟨S16x3x299x299, .f32⟩
  | .hbm, ⟨66, _⟩ => ⟨S_, .f32⟩
  | .hbm, ⟨67, _⟩ => ⟨S16x3x299x299, .f32⟩
  | .hbm, ⟨68, _⟩ => ⟨S16x3x299x299, .i1⟩
  | .hbm, ⟨69, _⟩ => ⟨S16x3x299x299, .f32⟩
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_call2_v0 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_call3_v0 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  slices_S16x2x299x299x8_S16x1x299x299x8_0_0_0_0_0 : S16x2x299x299x8.Slices ![0, 0, 0, 0, 0] S16x1x299x299x8
  shapeCasts_S16x1x299x299x8_S16x299x299x8 : S16x1x299x299x8.ShapeCasts S16x299x299x8
  slices_S16x2x299x299x8_S16x1x299x299x8_0_1_0_0_0 : S16x2x299x299x8.Slices ![0, 1, 0, 0, 0] S16x1x299x299x8
  bcast_S_S16x299x299x8 : S_.BroadcastsInDim S16x299x299x8 (![] : Fin 0 → Fin S16x299x299x8.rank)
  bcast_S16x299x299x8_S16x299x299x8x1_0_1_2_3 : S16x299x299x8.BroadcastsInDim S16x299x299x8x1 (![0, 1, 2, 3] : Fin 4 → Fin S16x299x299x8x1.rank)
  bcast_S16x299x299x8x1_S16x299x299x8x4_0_1_2_3_4 : S16x299x299x8x1.BroadcastsInDim S16x299x299x8x4 (![0, 1, 2, 3, 4] : Fin 5 → Fin S16x299x299x8x4.rank)
  reducesTo_S16x299x299x8x4_S16x299x299x4_d3 : S16x299x299x8x4.ReducesTo [3] S16x299x299x4
  h_S_ : 0 < S_.numel
  slices_S16x299x299x4_S16x299x299x1_0_0_0_3 : S16x299x299x4.Slices ![0, 0, 0, 3] S16x299x299x1
  bcast_S_S16x299x299x1 : S_.BroadcastsInDim S16x299x299x1 (![] : Fin 0 → Fin S16x299x299x1.rank)
  slices_S16x299x299x4_S16x299x299x3_0_0_0_0 : S16x299x299x4.Slices ![0, 0, 0, 0] S16x299x299x3
  bcast_S16x299x299x1_S16x299x299x3_0_1_2_3 : S16x299x299x1.BroadcastsInDim S16x299x299x3 (![0, 1, 2, 3] : Fin 4 → Fin S16x299x299x3.rank)
  bcast_S_S16x299x299x3 : S_.BroadcastsInDim S16x299x299x3 (![] : Fin 0 → Fin S16x299x299x3.rank)
  concatenates_S16x299x299x3_S16x299x299x1_S16x299x299x4_d3 : Shape.Concatenates [S16x299x299x3, S16x299x299x1] S16x299x299x4 3
  bcast_S_S16x299x299x4 : S_.BroadcastsInDim S16x299x299x4 (![] : Fin 0 → Fin S16x299x299x4.rank)
  transposes_S16x299x299x4_S16x4x299x299_0_3_1_2 : S16x299x299x4.Transposes [0, 3, 1, 2] S16x4x299x299
  slices_S16x4x299x299_S16x1x299x299_0_3_0_0 : S16x4x299x299.Slices ![0, 3, 0, 0] S16x1x299x299
  bcast_S_S16x1x299x299 : S_.BroadcastsInDim S16x1x299x299 (![] : Fin 0 → Fin S16x1x299x299.rank)
  slices_S16x4x299x299_S16x3x299x299_0_0_0_0 : S16x4x299x299.Slices ![0, 0, 0, 0] S16x3x299x299
  bcast_S_S16x3x299x299 : S_.BroadcastsInDim S16x3x299x299 (![] : Fin 0 → Fin S16x3x299x299.rank)
  bcast_S16x1x299x299_S16x3x299x299_0_1_2_3 : S16x1x299x299.BroadcastsInDim S16x3x299x299 (![0, 1, 2, 3] : Fin 4 → Fin S16x3x299x299.rank)
  gather_S200000x4_S16x299x299x8x1_S16x299x299x8x4_4_0_n_n_0_4_14_wf : GatherDims.WF S200000x4 S16x299x299x8x1 S16x299x299x8x4 [4] [0] [] [0] [] 4 ![1, 4]

variable [Facts₀]

def gather_S200000x4_S16x299x299x8x1_S16x299x299x8x4_4_0_n_n_0_4_14 : GatherDims S200000x4 S16x299x299x8x1 S16x299x299x8x4 where
  offsetDims := [4]
  collapsedSliceDims := [0]
  operandBatchingDims := []
  startIndicesBatchingDims := []
  startIndexMap := [0]
  indexVectorDim := 4
  sliceSizes := ![1, 4]
  wf := gather_S200000x4_S16x299x299x8x1_S16x299x299x8x4_4_0_n_n_0_4_14_wf

class Facts : Prop extends Facts₀ where

variable [Facts]
-- ==== Proof.IndexRange.lean ====
/-
  The index side of the certificate, over words alone.

  Both programs read a table row at an index word `x` after the same wrap: a negative `x` is moved up by the table's
  200000 rows. The kernel then keeps the gathered row only where the wrapped word lies in `[0, 199999]` and fills the row
  with a fixed pattern elsewhere; the reference keeps the gathered row everywhere. On words with
  `-200000 ≤ x < 200000` (read signed) the wrapped word is `x + 200000 ∈ [0, 199999]` for a negative `x` and `x` itself
  otherwise, so the kernel's test passes and the two programs keep the same row.

  Also here: a reduction by `and` whose operand is 1 everywhere, from the initial value 1, is 1 (the converse of the
  library's `Host.reduce_andi_eq_one`).
-/
import Idealize.ShloMosaic.Lib.ReduceAll
import Idealize.ShloMosaic.Lib.Affine
import Idealize.ShloMosaic.PureOps

namespace Cert.IndexRange

open Idealize.ShloMosaic

/-- The wrapped index word: `x + 200000` when `x` is negative, else `x`. -/
def wrap (x : BitVec 32) : BitVec 32 :=
  Scalar.select (IntOp.cmpi .slt x 0#32) (IntOp.addi x 200000#32) x

/-- A word in `[-200000, 200000)` wraps into `[0, 199999]`: the kernel's in-range test of the wrapped word is 1. -/
theorem wrap_in_table (x : BitVec 32)
    (hlo : IntOp.cmpi .sge x 4294767296#32 = 1#1) (hhi : IntOp.cmpi .slt x 200000#32 = 1#1) :
    IntOp.andi (IntOp.cmpi .sge (wrap x) 0#32) (IntOp.cmpi .sle (wrap x) 199999#32) = 1#1 := by
  rw [IntOp.cmpi_sge] at hlo
  rw [IntOp.cmpi_slt] at hhi
  have e1 : (4294767296#32 : BitVec 32).toInt = -200000 := by decide
  have e2 : (200000#32 : BitVec 32).toInt = 200000 := by decide
  have e3 : (0#32 : BitVec 32).toInt = 0 := by decide
  have e4 : (199999#32 : BitVec 32).toInt = 199999 := by decide
  rw [e1] at hlo
  rw [e2] at hhi
  rw [IntOp.andi_eq_one, IntOp.cmpi_sge, IntOp.cmpi_sle, e3, e4]
  unfold wrap Scalar.select
  by_cases hneg : IntOp.cmpi .slt x 0#32 = 1#1
  · rw [if_pos (show IntOp.cmpi .slt x 0#32 = 1 from hneg)]
    rw [IntOp.cmpi_slt, e3] at hneg
    have hadd : (IntOp.addi x 200000#32).toInt = x.toInt + 200000 := by
      unfold IntOp.addi
      rw [BitVec.toInt_add, e2]
      exact Int.bmod_eq_of_le (by omega) (by omega)
    rw [hadd]
    omega
  · rw [if_neg (show ¬ IntOp.cmpi .slt x 0#32 = 1 from hneg)]
    rw [IntOp.cmpi_slt, e3] at hneg
    omega

/-- A left fold by `and` over words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- `jnp.all` of an all-ones mask, along any axes, from the initial value 1, is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

end Cert.IndexRange
-- ==== Proof.TakeFill.lean ====
/-
  `take` in its fill mode, under the index range.

  From the table `a0` (200000 rows of 4) and index words `I`:
    wrapped  a negative word moved up by 200000;
    rows     the gather of whole table rows at the wrapped words;
    inTable  the test that the wrapped word lies in [0, 199999];
    taken    the gathered row where the test holds, a fixed fill pattern elsewhere.
  Where every word of `I` lies in [-200000, 200000) the test holds at every index, so `taken` IS `rows`: the kernel's
  `take` and the reference's plain indexing read the same rows.
  `weighted` is the sum over the 8 neighbours of a row source times the weight column: the first result.
-/
import proofs.«413209_j10685878633070_3_alg».proof.Proof.Gen.KernelIdeal
import proofs.«413209_j10685878633070_3_alg».proof.Proof.IndexRange
import Idealize.ShloMosaic.Lib.ValueIdx
import Idealize.ShloMosaic.Lib.StableHlo.Predicate

noncomputable section

namespace Cert.KernelIdeal.Prefix

open Cert.KernelIdeal Cert.KernelIdeal.Gen Idealize.ShloMosaic Idealize.ShloMosaic.ValueIdx

variable {F : FTy → Type} [FloatOps F]

/-- The index plane of the second input, as words. -/
def idxOf (a1 : FVec F S16x2x299x299x8 .f32) : IVec S16x299x299x8 32 :=
  fptosi 32 (shapeCast S16x299x299x8
    (extractStridedSlice S16x1x299x299x8 ![0, 1, 0, 0, 0] a1 slices_S16x2x299x299x8_S16x1x299x299x8_0_1_0_0_0)
    shapeCasts_S16x1x299x299x8_S16x299x299x8)

/-- The weight plane of the second input, as a column. -/
def wOf (a1 : FVec F S16x2x299x299x8 .f32) : FVec F S16x299x299x8x1 .f32 :=
  broadcastInDim S16x299x299x8x1 ![0, 1, 2, 3] bcast_S16x299x299x8_S16x299x299x8x1_0_1_2_3
    (shapeCast S16x299x299x8
      (extractStridedSlice S16x1x299x299x8 ![0, 0, 0, 0, 0] a1 slices_S16x2x299x299x8_S16x1x299x299x8_0_0_0_0_0)
      shapeCasts_S16x1x299x299x8_S16x299x299x8)

/-- A negative index counts from the table's end. -/
def wrapped (I : IVec S16x299x299x8 32) : IVec S16x299x299x8 32 :=
  select (cmpi .slt I (broadcastInDim S16x299x299x8 ![] bcast_S_S16x299x299x8 (constantI S_ 32 0#32)))
    (addi I (broadcastInDim S16x299x299x8 ![] bcast_S_S16x299x299x8 (constantI S_ 32 200000#32)))
    I

/-- The gather's start indices: the wrapped words as a column. -/
def startIdx (I : IVec S16x299x299x8 32) : IVec S16x299x299x8x1 32 :=
  broadcastInDim S16x299x299x8x1 ![0, 1, 2, 3] bcast_S16x299x299x8_S16x299x299x8x1_0_1_2_3 (wrapped I)

/-- Whole rows of the table at the start indices. -/
def rows (a0 : FVec F S200000x4 .f32) (I : IVec S16x299x299x8 32) : FVec F S16x299x299x8x4 .f32 :=
  Host.gather gather_S200000x4_S16x299x299x8x1_S16x299x299x8x4_4_0_n_n_0_4_14 a0 (startIdx I)

/-- The table's first row number, 0, at every start index. -/
def firstRow : IVec S16x299x299x8x1 32 :=
  broadcastInDim S16x299x299x8x1 ![] bcast_S_S16x299x299x8x1 (constantI S_ 32 0#32)

/-- The table's last row number, 199999, at every start index. -/
def lastRow : IVec S16x299x299x8x1 32 :=
  broadcastInDim S16x299x299x8x1 ![0, 1, 2, 3, 4] bcast_S1x1x1x1x1_S16x299x299x8x1_0_1_2_3_4
    (broadcastInDim S1x1x1x1x1 ![4] bcast_S1_S1x1x1x1x1_4 (constantI S1 32 199999#32))

/-- The wrapped word lies in the table. -/
def inTable (I : IVec S16x299x299x8 32) : IVec S16x299x299x8 1 :=
  Host.reduce IntOp.andi (andi (cmpi .sge (startIdx I) firstRow) (cmpi .sle (startIdx I) lastRow))
    (constantI S_ 1 1#1) reducesTo_S16x299x299x8x1_S16x299x299x8_d4 h_S_

/-- The row kept where the word is in the table, the fill pattern elsewhere. -/
def taken (a0 : FVec F S200000x4 .f32) (I : IVec S16x299x299x8 32) : FVec F S16x299x299x8x4 .f32 :=
  select (broadcastInDim S16x299x299x8x4 ![0, 1, 2, 3] bcast_S16x299x299x8_S16x299x299x8x4_0_1_2_3 (inTable I))
    (rows a0 I)
    (broadcastInDim S16x299x299x8x4 ![] bcast_S_S16x299x299x8x4 (constant S_ .f32 0x7FC00000#32))

/-- The weighted sum of a row source over the 8 neighbours. -/
def weighted (g : FVec F S16x299x299x8x4 .f32) (W : FVec F S16x299x299x8x1 .f32) : FVec F S16x299x299x4 .f32 :=
  Host.reduceAdd (mulf g (broadcastInDim S16x299x299x8x4 ![0, 1, 2, 3, 4] bcast_S16x299x299x8x1_S16x299x299x8x4_0_1_2_3_4 W))
    (constant S_ .f32 0x00000000#32) reducesTo_S16x299x299x8x4_S16x299x299x4_d3 h_S_

/-- Pixel-interleaved to channel planes. -/
def planes (v : FVec F S16x299x299x4 .f32) : FVec F S16x4x299x299 .f32 :=
  transpose S16x4x299x299 [0, 3, 1, 2] v transposes_S16x299x299x4_S16x4x299x299_0_3_1_2

/-- A broadcast of a constant is that constant everywhere. -/
theorem bcast_const {s t : Shape} {α : Type} (dims : Fin s.rank → Fin t.rank) (h : s.BroadcastsInDim t dims) (v : α) :
    broadcastInDim t dims h (fun _ => v) = fun _ => v := rfl

theorem firstRow_apply (k : S16x299x299x8x1.Idx) : firstRow k = 0#32 := by
  unfold firstRow constantI
  rw [bcast_const]

theorem lastRow_apply (k : S16x299x299x8x1.Idx) : lastRow k = 199999#32 := by
  unfold lastRow constantI
  rw [bcast_const, bcast_const]

/-- The wrapped array at an index is the wrapped word. -/
theorem wrapped_apply (I : IVec S16x299x299x8 32) (i : S16x299x299x8.Idx) : wrapped I i = Cert.IndexRange.wrap (I i) := by
  show Scalar.select (IntOp.cmpi .slt (I i) (broadcastInDim S16x299x299x8 ![] bcast_S_S16x299x299x8 (constantI S_ 32 0#32) i))
      (IntOp.addi (I i) (broadcastInDim S16x299x299x8 ![] bcast_S_S16x299x299x8 (constantI S_ 32 200000#32) i)) (I i) = _
  rw [StableHlo.Predicate.bcast_scalar bcast_S_S16x299x299x8 h_S_ (constantI S_ 32 0#32) i,
    StableHlo.Predicate.bcast_scalar bcast_S_S16x299x299x8 h_S_ (constantI S_ 32 200000#32) i]
  rfl

/-- Under the range every wrapped word passes the table test. -/
theorem inTable_ones (I : IVec S16x299x299x8 32)
    (hI : ∀ i, IntOp.cmpi .sge (I i) 4294767296#32 = 1#1 ∧ IntOp.cmpi .slt (I i) 200000#32 = 1#1) (j : S16x299x299x8.Idx) :
    inTable I j = 1#1 := by
  unfold inTable
  refine Cert.IndexRange.reduce_andi_ones _ _ _ _ (fun k => ?_) (fun _ => rfl) j
  obtain ⟨i, e⟩ : ∃ i, startIdx I k = wrapped I i := ⟨_, rfl⟩
  show IntOp.andi (IntOp.cmpi .sge (startIdx I k) (firstRow k)) (IntOp.cmpi .sle (startIdx I k) (lastRow k)) = 1#1
  rw [firstRow_apply, lastRow_apply, e, wrapped_apply]
  exact Cert.IndexRange.wrap_in_table _ (hI i).1 (hI i).2

/-- So the taken rows are the gathered rows. -/
theorem taken_eq_rows (a0 : FVec F S200000x4 .f32) (I : IVec S16x299x299x8 32)
    (hI : ∀ i, IntOp.cmpi .sge (I i) 4294767296#32 = 1#1 ∧ IntOp.cmpi .slt (I i) 200000#32 = 1#1) :
    taken a0 I = rows a0 I := by
  funext j
  obtain ⟨i, e⟩ : ∃ i, broadcastInDim S16x299x299x8x4 ![0, 1, 2, 3] bcast_S16x299x299x8_S16x299x299x8x4_0_1_2_3 (inTable I) j
      = inTable I i := ⟨_, rfl⟩
  unfold taken
  rw [select_apply, e, inTable_ones I hI i]
  exact select_one _ _

end Cert.KernelIdeal.Prefix

end
-- ==== Proof.KernelPrefix.lean ====
/-
  What the kernel's buffers hold when its one region is entered, read off the host operations before it.

  The first result `x` (buffer `main_v9`) is the weighted sum, over the 8 neighbours, of the rows `take` returns — the
  gathered table rows where the wrapped index lies in the table, a fill pattern elsewhere — times the weight column. The
  region's two inputs are `x` and the third argument, each moved to channel planes by a transpose.
  Each stage is stated through the buffers of the stages before it: the weight column, the table test of the wrapped
  index words, the gathered rows, and the first result as the weighted sum over what `take` returns.
-/
import proofs.«413209_j10685878633070_3_alg».proof.Proof.Gen.KernelIdeal.Frame
import proofs.«413209_j10685878633070_3_alg».proof.Proof.TakeFill
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- Open the region-entry valuation as the fold of the host operations before the region. -/
macro "host_prefix" : tactic =>
  `(tactic| (dsimp only [Gen.V, Gen.V0]
             simp only [Gen.hostOps0, Gen.hostOps0_1, Gen.hostOps0_2, List.flatten_cons, List.flatten_nil, List.append_nil,
               List.cons_append, List.nil_append]))

/-- The weight column. -/
theorem V_weights (c : Dev nD) :
    (V m c main_v6 : S16x299x299x8x1.Idx → Elt F .f32) = wOf (m ((c : Thread nD τ).loc main_arg1)) := by
  host_prefix
  after_results_simp <;> rfl

/-- The table test of the wrapped index words. -/
theorem V_inTable (c : Dev nD) :
    (V m c main_call0_v12 : S16x299x299x8.Idx → BitVec 1) = inTable (idxOf (m ((c : Thread nD τ).loc main_arg1))) := by
  host_prefix
  after_results_simp
  simp only [cast_eq]
  rfl

/-- The gathered rows. -/
theorem V_rows (c : Dev nD) :
    (V m c main_call0_v13 : S16x299x299x8x4.Idx → Elt F .f32)
      = rows (m ((c : Thread nD τ).loc main_arg0)) (idxOf (m ((c : Thread nD τ).loc main_arg1))) := by
  host_prefix
  after_results_simp <;> rfl

/-- The first result from `take`'s result and the weight column. -/
theorem V_x_step (c : Dev nD) :
    (V m c main_v9 : S16x299x299x4.Idx → Elt F .f32) = weighted (V m c main_v5) (V m c main_v6) := by
  unfold weighted
  host_prefix
  after_results_simp

/-- The region's first input is the first result on channel planes. -/
theorem V_main_v10 (c : Dev nD) :
    (V m c main_v10 : S16x4x299x299.Idx → Elt F .f32) = planes (V m c main_v9) := by
  unfold planes
  host_prefix
  after_results_simp

/-- The region's second input: the third argument on channel planes. -/
theorem V_main_v11 (c : Dev nD) :
    (V m c main_v11 : S16x4x299x299.Idx → Elt F .f32) = planes (m ((c : Thread nD τ).loc main_arg2)) := by
  host_prefix
  after_results_simp <;> rfl

end Cert.KernelIdeal.Prefix

end
-- ==== Proof.Planes.lean ====
/-
  How the kernel's body addresses a block of channel planes.

  A block is [1, 4, 299, 299]: one batch element, 4 channel planes. The body loads plane `k` through the rectangle at
  offsets (0, k, 0, 0) of extents (1, 1, 299, 299), views it as a [299, 299] image, computes image by image, views each
  result as a [1, 1, 299, 299] plane again and stores it through the rectangle of the output plane. So:
    a loaded plane at (0, 0, h, w) is the block at (0, k, h, w);
    the image view of a plane at (h, w) is the plane at (0, 0, h, w);
    the plane view of an image at (·, ·, h, w) is the image at (h, w).
-/
import proofs.«413209_j10685878633070_3_alg».proof.Proof.Gen.KernelIdeal.Frame
import Idealize.ShloMosaic.Lib.Pipeline.Value
import Idealize.ShloMosaic.Lib.ValueIdx

noncomputable section

namespace Cert.KernelIdeal.Planes

open Cert.KernelIdeal Cert.KernelIdeal.Gen Idealize.ShloMosaic Idealize.ShloMosaic.ValueIdx Idealize.ShloMosaic.Pipeline

variable {α : Type}

/-- The row and the column a plane index names. -/
def rowOf (p : S1x1x299x299.Idx) : Fin 299 := p 2
def colOf (p : S1x1x299x299.Idx) : Fin 299 := p 3

theorem rowOf_ix4 (a b : Fin 1) (h w : Fin 299) : rowOf (ix4 a b h w) = h := rfl
theorem colOf_ix4 (a b : Fin 1) (h w : Fin 299) : colOf (ix4 a b h w) = w := rfl

/-- The unit coordinates of a plane index are zero. -/
theorem plane_idx_eq (p : S1x1x299x299.Idx) : p = ix4 ⟨0, Nat.one_pos⟩ ⟨0, Nat.one_pos⟩ (rowOf p) (colOf p) := by
  funext a
  match a with
  | ⟨0, _⟩ => exact Fin.ext (by have h : (p 0).val < 1 := (p 0).isLt; show (p 0).val = 0; omega)
  | ⟨1, _⟩ => exact Fin.ext (by have h : (p 1).val < 1 := (p 1).isLt; show (p 1).val = 0; omega)
  | ⟨2, _⟩ => rfl
  | ⟨3, _⟩ => rfl

/-- The image view of a plane. -/
theorem image_of_plane (v : S1x1x299x299.Idx → α) (h w : Fin 299) :
    shapeCast S299x299 v shapeCasts_S1x1x299x299_S299x299 (ix2 h w) = v (ix4 ⟨0, Nat.one_pos⟩ ⟨0, Nat.one_pos⟩ h w) :=
  shapeCast_apply v shapeCasts_S1x1x299x299_S299x299 (ix2 h w) (ix4 ⟨0, Nat.one_pos⟩ ⟨0, Nat.one_pos⟩ h w)
    (by rw [Shape.rowMajor_val_four, Shape.rowMajor_val_two]
        show ((0 * 1 + 0) * 299 + h.val) * 299 + w.val = h.val * 299 + w.val
        omega)

/-- The plane view of an image. -/
theorem plane_of_image (v : S299x299.Idx → α) (p : S1x1x299x299.Idx) :
    shapeCast S1x1x299x299 v shapeCasts_S299x299_S1x1x299x299 p = v (ix2 (rowOf p) (colOf p)) :=
  shapeCast_apply v shapeCasts_S299x299_S1x1x299x299 p (ix2 (rowOf p) (colOf p))
    (by rw [Shape.rowMajor_val_four, Shape.rowMajor_val_two]
        have h0 : (p 0).val = 0 := by have h : (p 0).val < 1 := (p 0).isLt; omega
        have h1 : (p 1).val = 0 := by have h : (p 1).val < 1 := (p 1).isLt; omega
        show (p 2).val * 299 + (p 3).val = (((p 0).val * 1 + (p 1).val) * 299 + (p 2).val) * 299 + (p 3).val
        rw [h0, h1]
        omega)

/-- A load through the rectangle of channel 0 reads the block's plane 0. -/
theorem ld_plane0 {Val : EltTy → Type} {e : EltTy} (X : S1x4x299x299.Idx → Val e) (q : S1x1x299x299.Idx) :
    View.ld X r0_0 q = X (ix4 ⟨0, Nat.one_pos⟩ ⟨0, by decide⟩ (rowOf q) (colOf q)) := by
  show X (r0_0.idx q) = _
  congr 1
  funext a
  have h0 : (q 0).val < 1 := (q 0).isLt
  have h1 : (q 1).val < 1 := (q 1).isLt
  match a with
  | ⟨0, _⟩ => exact Fin.ext (by show 0 + 1 * (q 0).val = 0; omega)
  | ⟨1, _⟩ => exact Fin.ext (by show 0 + 1 * (q 1).val = 0; omega)
  | ⟨2, _⟩ => exact Fin.ext (by show 0 + 1 * (q 2).val = (q 2).val; omega)
  | ⟨3, _⟩ => exact Fin.ext (by show 0 + 1 * (q 3).val = (q 3).val; omega)

/-- A load through the rectangle of channel 1 reads the block's plane 1. -/
theorem ld_plane1 {Val : EltTy → Type} {e : EltTy} (X : S1x4x299x299.Idx → Val e) (q : S1x1x299x299.Idx) :
    View.ld X r0_1 q = X (ix4 ⟨0, Nat.one_pos⟩ ⟨1, by decide⟩ (rowOf q) (colOf q)) := by
  show X (r0_1.idx q) = _
  congr 1
  funext a
  have h0 : (q 0).val < 1 := (q 0).isLt
  have h1 : (q 1).val < 1 := (q 1).isLt
  match a with
  | ⟨0, _⟩ => exact Fin.ext (by show 0 + 1 * (q 0).val = 0; omega)
  | ⟨1, _⟩ => exact Fin.ext (by show 1 + 1 * (q 1).val = 1; omega)
  | ⟨2, _⟩ => exact Fin.ext (by show 0 + 1 * (q 2).val = (q 2).val; omega)
  | ⟨3, _⟩ => exact Fin.ext (by show 0 + 1 * (q 3).val = (q 3).val; omega)

/-- A load through the rectangle of channel 2 reads the block's plane 2. -/
theorem ld_plane2 {Val : EltTy → Type} {e : EltTy} (X : S1x4x299x299.Idx → Val e) (q : S1x1x299x299.Idx) :
    View.ld X r0_2 q = X (ix4 ⟨0, Nat.one_pos⟩ ⟨2, by decide⟩ (rowOf q) (colOf q)) := by
  show X (r0_2.idx q) = _
  congr 1
  funext a
  have h0 : (q 0).val < 1 := (q 0).isLt
  have h1 : (q 1).val < 1 := (q 1).isLt
  match a with
  | ⟨0, _⟩ => exact Fin.ext (by show 0 + 1 * (q 0).val = 0; omega)
  | ⟨1, _⟩ => exact Fin.ext (by show 2 + 1 * (q 1).val = 2; omega)
  | ⟨2, _⟩ => exact Fin.ext (by show 0 + 1 * (q 2).val = (q 2).val; omega)
  | ⟨3, _⟩ => exact Fin.ext (by show 0 + 1 * (q 3).val = (q 3).val; omega)

/-- A load through the rectangle of channel 3 reads the block's plane 3. -/
theorem ld_plane3 {Val : EltTy → Type} {e : EltTy} (X : S1x4x299x299.Idx → Val e) (q : S1x1x299x299.Idx) :
    View.ld X r0_3 q = X (ix4 ⟨0, Nat.one_pos⟩ ⟨3, by decide⟩ (rowOf q) (colOf q)) := by
  show X (r0_3.idx q) = _
  congr 1
  funext a
  have h0 : (q 0).val < 1 := (q 0).isLt
  have h1 : (q 1).val < 1 := (q 1).isLt
  match a with
  | ⟨0, _⟩ => exact Fin.ext (by show 0 + 1 * (q 0).val = 0; omega)
  | ⟨1, _⟩ => exact Fin.ext (by show 3 + 1 * (q 1).val = 3; omega)
  | ⟨2, _⟩ => exact Fin.ext (by show 0 + 1 * (q 2).val = (q 2).val; omega)
  | ⟨3, _⟩ => exact Fin.ext (by show 0 + 1 * (q 3).val = (q 3).val; omega)

end Cert.KernelIdeal.Planes

end
-- ==== Proof.Pixel.lean ====
/-
  The compositing of ONE pixel, on the extended reals.

  A pixel has four channels of the gathered image `x` (red, green, blue, alpha) and four of the original image `o`.
  With `α = x_alpha / 255` and the pixel lit when `o_alpha > 0`:

    blend  = o_c + x_c · α   where lit, 0 elsewhere           (a colour channel before clipping)
    clip v = min 255 (max 0 v)
    white a v = v where a > 0, 255 elsewhere                    (an unlit pixel shown white)

  The composited image is `clip blend` on the colour channels and `clip o_alpha` on alpha; its white-backed view tests
  the CLIPPED alpha, the original image's white-backed view its own alpha. Both programs compute exactly these, the
  kernel on channel planes and the reference on interleaved pixels; the quotient by 255 is the kernel's vector divide in
  one and the host's divide in the other, one operation on the extended reals.
-/
import Idealize.ShloMosaic.PureOps.Ideal

noncomputable section

namespace Cert.Pixel

open Idealize.ShloMosaic

/-- The number 255 and the number 0 as the programs spell them: binary32 words read at the ideal instance. -/
def c255 : Ideal .f32 := FloatOps.ofBits (F := Ideal) .f32 0x437F0000#32
def c0 : Ideal .f32 := FloatOps.ofBits (F := Ideal) .f32 0x00000000#32

/-- The pixel's test: its alpha is above zero. -/
def lit (a : Ideal .f32) : BitVec 1 := FloatOps.cmpf .ogt a c0

/-- A colour channel of the composite before clipping. -/
def blend (xc xa oc oa : Ideal .f32) : Ideal .f32 :=
  Scalar.select (lit oa) (FloatOps.addf oc (FloatOps.mulf xc (FloatOps.divf xa c255))) c0

/-- Clipping to [0, 255]. -/
def clip (v : Ideal .f32) : Ideal .f32 := FloatOps.minimumf c255 (FloatOps.maximumf c0 v)

/-- A channel over a white background: the channel where the alpha `a` is above zero, 255 elsewhere. -/
def white (a v : Ideal .f32) : Ideal .f32 := Scalar.select (lit a) v c255

/-- The host's divide and the vector divide are one operation on the extended reals. -/
theorem hostDivf_eq (x y : Ideal .f32) : FloatOps.hostDivf x y = FloatOps.divf x y := rfl

end Cert.Pixel

end
-- ==== Proof.KernelPieces.lean ====
/-
  What each store of the kernel's body writes, pixel by pixel.

  With `x0` the block of the gathered image and `x1` the block of the original image (each 4 channel planes of one batch
  element), the body stores, at row `h` and column `w` of the plane it addresses:
    composite, colour plane k :  clip (blend x0_k x0_alpha x1_k x1_alpha)      composite, alpha plane :  clip x1_alpha
    composite over white, plane k :  white (clip x1_alpha) (clip (blend …))
    original over white,  plane k :  white x1_alpha x1_k
  Each is the skeleton's payload term with its image views, plane loads and pointwise operations read at the index.
-/
import proofs.«413209_j10685878633070_3_alg».proof.Proof.Planes
import proofs.«413209_j10685878633070_3_alg».proof.Proof.Pixel

noncomputable section

namespace Cert.KernelIdeal.Pieces

open Cert.KernelIdeal Cert.KernelIdeal.Gen Cert.KernelIdeal.Planes Idealize.ShloMosaic Idealize.ShloMosaic.ValueIdx
open Idealize.ShloMosaic.Pipeline Cert.Pixel

variable (x0 x1 : Vec Ideal S1x4x299x299 .f32) (p : S1x1x299x299.Idx)

/-- Plane `k` of a block at the pixel the plane index `p` names. -/
abbrev px (x : Vec Ideal S1x4x299x299 .f32) (k : Fin 4) (p : S1x1x299x299.Idx) : Ideal .f32 :=
  x (ix4 ⟨0, Nat.one_pos⟩ k (rowOf p) (colOf p))

theorem idx_plane0 (h w : Fin 299) :
    r0_0.idx (ix4 ⟨0, Nat.one_pos⟩ ⟨0, Nat.one_pos⟩ h w) = ix4 ⟨0, Nat.one_pos⟩ ⟨0, by decide⟩ h w := by
  funext a
  match a with
  | ⟨0, _⟩ => exact Fin.ext (by show 0 + 1 * 0 = 0; rfl)
  | ⟨1, _⟩ => exact Fin.ext (by show 0 + 1 * 0 = 0; rfl)
  | ⟨2, _⟩ => exact Fin.ext (by show 0 + 1 * h.val = h.val; omega)
  | ⟨3, _⟩ => exact Fin.ext (by show 0 + 1 * w.val = w.val; omega)

theorem idx_plane1 (h w : Fin 299) :
    r0_1.idx (ix4 ⟨0, Nat.one_pos⟩ ⟨0, Nat.one_pos⟩ h w) = ix4 ⟨0, Nat.one_pos⟩ ⟨1, by decide⟩ h w := by
  funext a
  match a with
  | ⟨0, _⟩ => exact Fin.ext (by show 0 + 1 * 0 = 0; rfl)
  | ⟨1, _⟩ => exact Fin.ext (by show 1 + 1 * 0 = 1; rfl)
  | ⟨2, _⟩ => exact Fin.ext (by show 0 + 1 * h.val = h.val; omega)
  | ⟨3, _⟩ => exact Fin.ext (by show 0 + 1 * w.val = w.val; omega)

theorem idx_plane2 (h w : Fin 299) :
    r0_2.idx (ix4 ⟨0, Nat.one_pos⟩ ⟨0, Nat.one_pos⟩ h w) = ix4 ⟨0, Nat.one_pos⟩ ⟨2, by decide⟩ h w := by
  funext a
  match a with
  | ⟨0, _⟩ => exact Fin.ext (by show 0 + 1 * 0 = 0; rfl)
  | ⟨1, _⟩ => exact Fin.ext (by show 2 + 1 * 0 = 2; rfl)
  | ⟨2, _⟩ => exact Fin.ext (by show 0 + 1 * h.val = h.val; omega)
  | ⟨3, _⟩ => exact Fin.ext (by show 0 + 1 * w.val = w.val; omega)

theorem idx_plane3 (h w : Fin 299) :
    r0_3.idx (ix4 ⟨0, Nat.one_pos⟩ ⟨0, Nat.one_pos⟩ h w) = ix4 ⟨0, Nat.one_pos⟩ ⟨3, by decide⟩ h w := by
  funext a
  match a with
  | ⟨0, _⟩ => exact Fin.ext (by show 0 + 1 * 0 = 0; rfl)
  | ⟨1, _⟩ => exact Fin.ext (by show 3 + 1 * 0 = 3; rfl)
  | ⟨2, _⟩ => exact Fin.ext (by show 0 + 1 * h.val = h.val; omega)
  | ⟨3, _⟩ => exact Fin.ext (by show 0 + 1 * w.val = w.val; omega)

/-- Read a payload at an index: the image views, the plane loads, the pointwise operations. -/
macro "read_payload" : tactic =>
  `(tactic| simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, plane_of_image, image_of_plane, View.ld, idx_plane0, idx_plane1, idx_plane2, idx_plane3, broadcast_apply, cmpf_apply,
      select_apply, mulf_apply, addf_apply, divf_apply, maximumf_apply, minimumf_apply])

/-- The composite's red plane. -/
theorem composite_red :
    k0_pay16 (k0_pay11 (View.ld x0 r0_0) (View.ld x0 r0_3) (View.ld x1 r0_0) (View.ld x1 r0_3)) p
      = clip (blend (px x0 0 p) (px x0 3 p) (px x1 0 p) (px x1 3 p)) := by
  read_payload
  rfl

/-- The composite's green plane. -/
theorem composite_green :
    k0_pay17 (k0_pay3 (View.ld x0 r0_1)) (k0_pay6 (View.ld x1 r0_1)) (k0_pay9 (View.ld x0 r0_3)) (k0_pay10 (View.ld x1 r0_3)) p
      = clip (blend (px x0 1 p) (px x0 3 p) (px x1 1 p) (px x1 3 p)) := by
  read_payload
  rfl

/-- The composite's blue plane. -/
theorem composite_blue :
    k0_pay18 (k0_pay4 (View.ld x0 r0_2)) (k0_pay7 (View.ld x1 r0_2)) (k0_pay9 (View.ld x0 r0_3)) (k0_pay10 (View.ld x1 r0_3)) p
      = clip (blend (px x0 2 p) (px x0 3 p) (px x1 2 p) (px x1 3 p)) := by
  read_payload
  rfl

/-- The composite's alpha plane. -/
theorem composite_alpha :
    k0_pay19 (k0_pay15 (k0_pay8 (View.ld x1 r0_3))) p
      = clip (px x1 3 p) := by
  read_payload
  rfl

/-- The composite over white, red plane. -/
theorem white_red :
    k0_pay21 (k0_pay12 (k0_pay11 (View.ld x0 r0_0) (View.ld x0 r0_3) (View.ld x1 r0_0) (View.ld x1 r0_3))) (k0_pay15 (k0_pay8 (View.ld x1 r0_3))) p
      = white (clip (px x1 3 p)) (clip (blend (px x0 0 p) (px x0 3 p) (px x1 0 p) (px x1 3 p))) := by
  read_payload
  rfl

/-- The composite over white, green plane. -/
theorem white_green :
    k0_pay22 (k0_pay13 (k0_pay3 (View.ld x0 r0_1)) (k0_pay6 (View.ld x1 r0_1)) (k0_pay9 (View.ld x0 r0_3)) (k0_pay10 (View.ld x1 r0_3))) (k0_pay15 (k0_pay8 (View.ld x1 r0_3))) p
      = white (clip (px x1 3 p)) (clip (blend (px x0 1 p) (px x0 3 p) (px x1 1 p) (px x1 3 p))) := by
  read_payload
  rfl

/-- The composite over white, blue plane. -/
theorem white_blue :
    k0_pay23 (k0_pay14 (k0_pay4 (View.ld x0 r0_2)) (k0_pay7 (View.ld x1 r0_2)) (k0_pay9 (View.ld x0 r0_3)) (k0_pay10 (View.ld x1 r0_3))) (k0_pay15 (k0_pay8 (View.ld x1 r0_3))) p
      = white (clip (px x1 3 p)) (clip (blend (px x0 2 p) (px x0 3 p) (px x1 2 p) (px x1 3 p))) := by
  read_payload
  rfl

/-- The original over white, red plane. -/
theorem orig_red :
    k0_pay24 (k0_pay5 (View.ld x1 r0_0)) (k0_pay10 (View.ld x1 r0_3)) p
      = white (px x1 3 p) (px x1 0 p) := by
  read_payload
  rfl

/-- The original over white, green plane. -/
theorem orig_green :
    k0_pay1 (k0_pay25 (k0_pay6 (View.ld x1 r0_1)) (k0_pay10 (View.ld x1 r0_3))) p
      = white (px x1 3 p) (px x1 1 p) := by
  read_payload
  rfl

/-- The original over white, blue plane. -/
theorem orig_blue :
    k0_pay2 (k0_pay7 (View.ld x1 r0_2)) (k0_pay10 (View.ld x1 r0_3)) p
      = white (px x1 3 p) (px x1 2 p) := by
  read_payload
  rfl

end Cert.KernelIdeal.Pieces

end
-- ==== Proof.Blocks.lean ====
/-
  From the body's blocks to the region's output arrays.

  The grid has 16 points, one per batch element; at point `t` every window's block is batch element `t` whole: all its
  channel planes. So a block index (0, k, h, w) of point `t` is the array index (t, k, h, w); an input block read
  there is the gathered image `X`, or the original image `O`, at pixel (t, h, w), channel k (the inputs are those
  images moved to channel planes); and what the body leaves in an output block is, store by store, the pixel formula
  of that plane. The blocks of the 16 points tile each output array, so after the run it holds the formula everywhere.
-/
import proofs.«413209_j10685878633070_3_alg».proof.Proof.KernelPrefix
import proofs.«413209_j10685878633070_3_alg».proof.Proof.KernelPieces
import Idealize.ShloMosaic.Lib.Pipeline.Value

set_option maxRecDepth 16384

noncomputable section

namespace Cert.KernelIdeal.Blocks

open Cert.KernelIdeal Cert.KernelIdeal.Gen Cert.KernelIdeal.Prefix Cert.KernelIdeal.Planes Cert.KernelIdeal.Pieces
open Idealize.ShloMosaic Idealize.ShloMosaic.TcCoe Idealize.SL.Sem Idealize.ShloMosaic.ValueIdx Cert.Pixel
open Idealize.ShloMosaic.Pipeline (Dat)

/-! ## The pixel formulas as whole arrays, channel-first -/

/-- The composite at a pixel's channel. -/
def comp (X O : FVec Ideal S16x299x299x4 .f32) (b : Fin 16) (h w : Fin 299) (k : Fin 4) : Ideal .f32 :=
  if k.val < 3 then clip (blend (X (ix4 b h w k)) (X (ix4 b h w 3)) (O (ix4 b h w k)) (O (ix4 b h w 3)))
  else clip (O (ix4 b h w 3))

/-- The composite, channel-first. -/
def compPlanes (X O : FVec Ideal S16x299x299x4 .f32) (j : S16x4x299x299.Idx) : Ideal .f32 := comp X O (j 0) (j 2) (j 3) (j 1)

theorem compPlanes_at (X O : FVec Ideal S16x299x299x4 .f32) (b : Fin 16) (k : Fin 4) (h w : Fin 299) :
    compPlanes X O (ix4 b k h w) = comp X O b h w k := rfl

/-! ## Where a block sits in its array -/

/-- The index maps, decided over the 16 points: block `t` is batch element `t`, whole. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0) :=
  (by decide +kernel : ∀ t : Fin grid0.N, _)

/-- The batch element of a grid point. -/
def batchOf (t : Fin cfg0.N) : Fin 16 := ⟨t.val, by have h := t.isLt; have e : cfg0.N = 16 := N_0; omega⟩

/-- A block index of 4 planes at point `t`, in the array. -/
theorem emb0 (t : Fin cfg0.N) (k : Fin 4) (h w : Fin 299) :
    ((cfg0.win 0).blk t).view.emb (ix4 ⟨0, Nat.one_pos⟩ k h w) = (ix4 (batchOf t) k h w : S16x4x299x299.Idx) := by
  obtain ⟨⟨e0, e1, e2, e3⟩, -⟩ := idx_facts t
  funext a
  apply Fin.ext
  match a with
  | ⟨0, _⟩ => show win0_0.index t (0 : Fin 4) * 1 + 1 * 0 = t.val; omega
  | ⟨1, _⟩ => show win0_0.index t (1 : Fin 4) * 4 + 1 * k.val = k.val; omega
  | ⟨2, _⟩ => show win0_0.index t (2 : Fin 4) * 299 + 1 * h.val = h.val; omega
  | ⟨3, _⟩ => show win0_0.index t (3 : Fin 4) * 299 + 1 * w.val = w.val; omega

theorem emb1 (t : Fin cfg0.N) (k : Fin 4) (h w : Fin 299) :
    ((cfg0.win 1).blk t).view.emb (ix4 ⟨0, Nat.one_pos⟩ k h w) = (ix4 (batchOf t) k h w : S16x4x299x299.Idx) := by
  obtain ⟨-, ⟨e0, e1, e2, e3⟩, -, -, -⟩ := idx_facts t
  funext a
  apply Fin.ext
  match a with
  | ⟨0, _⟩ => show win0_1.index t (0 : Fin 4) * 1 + 1 * 0 = t.val; omega
  | ⟨1, _⟩ => show win0_1.index t (1 : Fin 4) * 4 + 1 * k.val = k.val; omega
  | ⟨2, _⟩ => show win0_1.index t (2 : Fin 4) * 299 + 1 * h.val = h.val; omega
  | ⟨3, _⟩ => show win0_1.index t (3 : Fin 4) * 299 + 1 * w.val = w.val; omega

theorem emb2 (t : Fin cfg0.N) (k : Fin 4) (h w : Fin 299) :
    ((cfg0.win 2).blk t).view.emb (ix4 ⟨0, Nat.one_pos⟩ k h w) = (ix4 (batchOf t) k h w : S16x4x299x299.Idx) := by
  obtain ⟨-, -, ⟨e0, e1, e2, e3⟩, -, -⟩ := idx_facts t
  funext a
  apply Fin.ext
  match a with
  | ⟨0, _⟩ => show win0_2.index t (0 : Fin 4) * 1 + 1 * 0 = t.val; omega
  | ⟨1, _⟩ => show win0_2.index t (1 : Fin 4) * 4 + 1 * k.val = k.val; omega
  | ⟨2, _⟩ => show win0_2.index t (2 : Fin 4) * 299 + 1 * h.val = h.val; omega
  | ⟨3, _⟩ => show win0_2.index t (3 : Fin 4) * 299 + 1 * w.val = w.val; omega

theorem emb3 (t : Fin cfg0.N) (k : Fin 3) (h w : Fin 299) :
    ((cfg0.win 3).blk t).view.emb (ix4 ⟨0, Nat.one_pos⟩ k h w) = (ix4 (batchOf t) k h w : S16x3x299x299.Idx) := by
  obtain ⟨-, -, -, ⟨e0, e1, e2, e3⟩, -⟩ := idx_facts t
  funext a
  apply Fin.ext
  match a with
  | ⟨0, _⟩ => show win0_3.index t (0 : Fin 4) * 1 + 1 * 0 = t.val; omega
  | ⟨1, _⟩ => show win0_3.index t (1 : Fin 4) * 3 + 1 * k.val = k.val; omega
  | ⟨2, _⟩ => show win0_3.index t (2 : Fin 4) * 299 + 1 * h.val = h.val; omega
  | ⟨3, _⟩ => show win0_3.index t (3 : Fin 4) * 299 + 1 * w.val = w.val; omega

theorem emb4 (t : Fin cfg0.N) (k : Fin 3) (h w : Fin 299) :
    ((cfg0.win 4).blk t).view.emb (ix4 ⟨0, Nat.one_pos⟩ k h w) = (ix4 (batchOf t) k h w : S16x3x299x299.Idx) := by
  obtain ⟨-, -, -, -, ⟨e0, e1, e2, e3⟩⟩ := idx_facts t
  funext a
  apply Fin.ext
  match a with
  | ⟨0, _⟩ => show win0_4.index t (0 : Fin 4) * 1 + 1 * 0 = t.val; omega
  | ⟨1, _⟩ => show win0_4.index t (1 : Fin 4) * 3 + 1 * k.val = k.val; omega
  | ⟨2, _⟩ => show win0_4.index t (2 : Fin 4) * 299 + 1 * h.val = h.val; omega
  | ⟨3, _⟩ => show win0_4.index t (3 : Fin 4) * 299 + 1 * w.val = w.val; omega

/-! ## The input blocks are the two images at the pixel -/

variable (m : (ℓ : Loc nD τ sig) → Buf (Elt Ideal) ℓ)

/-- The gathered image `x` as the region finds it, and the original image. -/
abbrev gathered (c : Dev nD) : FVec Ideal S16x299x299x4 .f32 := V m c main_v9
abbrev original (c : Dev nD) : FVec Ideal S16x299x299x4 .f32 := m ((c : Thread nD τ).loc main_arg2)

theorem xblock_at (c : Dev nD) (t : Fin cfg0.N) (k : Fin 4) (h w : Fin 299) :
    iblk m c 0 t (ix4 ⟨0, Nat.one_pos⟩ k h w) = gathered m c (ix4 (batchOf t) h w k) := by
  unfold iblk
  show V m c main_v10 (((cfg0.win 0).blk t).view.emb (ix4 ⟨0, Nat.one_pos⟩ k h w)) = _
  rw [emb0, V_main_v10]
  unfold planes
  exact transpose_apply [0, 3, 1, 2] _ transposes_S16x299x299x4_S16x4x299x299_0_3_1_2 (ix4 (batchOf t) k h w) (ix4 (batchOf t) h w k)
    (fun a => match a with | ⟨0, _⟩ => rfl | ⟨1, _⟩ => rfl | ⟨2, _⟩ => rfl | ⟨3, _⟩ => rfl)

theorem oblock_at (c : Dev nD) (t : Fin cfg0.N) (k : Fin 4) (h w : Fin 299) :
    iblk m c 1 t (ix4 ⟨0, Nat.one_pos⟩ k h w) = original m c (ix4 (batchOf t) h w k) := by
  unfold iblk
  show V m c main_v11 (((cfg0.win 1).blk t).view.emb (ix4 ⟨0, Nat.one_pos⟩ k h w)) = _
  rw [emb1, V_main_v11]
  unfold planes
  exact transpose_apply [0, 3, 1, 2] _ transposes_S16x299x299x4_S16x4x299x299_0_3_1_2 (ix4 (batchOf t) k h w) (ix4 (batchOf t) h w k)
    (fun a => match a with | ⟨0, _⟩ => rfl | ⟨1, _⟩ => rfl | ⟨2, _⟩ => rfl | ⟨3, _⟩ => rfl)

/-! ## What the body leaves in an output block, as one formula of the block index -/

/-- A colour channel as a channel of the four. -/
def up (k : Fin 3) : Fin 4 := ⟨k.val, by omega⟩

/-- The composite over white, channel-first: tested on the composite's own alpha. -/
def whitePlanes (X O : FVec Ideal S16x299x299x4 .f32) (j : S16x3x299x299.Idx) : Ideal .f32 :=
  white (comp X O (j 0) (j 2) (j 3) 3) (comp X O (j 0) (j 2) (j 3) (up (j 1)))

/-- The original over white, channel-first. -/
def origPlanes (O : FVec Ideal S16x299x299x4 .f32) (j : S16x3x299x299.Idx) : Ideal .f32 :=
  white (O (ix4 (j 0) (j 2) (j 3) 3)) (O (ix4 (j 0) (j 2) (j 3) (up (j 1))))

theorem whitePlanes_at (X O : FVec Ideal S16x299x299x4 .f32) (b : Fin 16) (k : Fin 3) (h w : Fin 299) :
    whitePlanes X O (ix4 b k h w) = white (comp X O b h w 3) (comp X O b h w (up k)) := rfl
theorem origPlanes_at (O : FVec Ideal S16x299x299x4 .f32) (b : Fin 16) (k : Fin 3) (h w : Fin 299) :
    origPlanes O (ix4 b k h w) = white (O (ix4 b h w 3)) (O (ix4 b h w (up k))) := rfl

theorem comp_alpha (X O : FVec Ideal S16x299x299x4 .f32) (b : Fin 16) (h w : Fin 299) :
    comp X O b h w 3 = clip (O (ix4 b h w 3)) := if_neg (by decide)
theorem comp_colour (X O : FVec Ideal S16x299x299x4 .f32) (b : Fin 16) (h w : Fin 299) (k : Fin 3) :
    comp X O b h w (up k) = clip (blend (X (ix4 b h w (up k))) (X (ix4 b h w 3)) (O (ix4 b h w (up k))) (O (ix4 b h w 3))) :=
  if_pos k.isLt

/-- The coordinates of a block index of 4 planes, and of 3. -/
def chan4 (y : S1x4x299x299.Idx) : Fin 4 := y 1
def row4 (y : S1x4x299x299.Idx) : Fin 299 := y 2
def col4 (y : S1x4x299x299.Idx) : Fin 299 := y 3
def chan3 (y : S1x3x299x299.Idx) : Fin 3 := y 1
def row3 (y : S1x3x299x299.Idx) : Fin 299 := y 2
def col3 (y : S1x3x299x299.Idx) : Fin 299 := y 3

theorem block4_eq (y : S1x4x299x299.Idx) : y = ix4 ⟨0, Nat.one_pos⟩ (chan4 y) (row4 y) (col4 y) := by
  funext a
  match a with
  | ⟨0, _⟩ => exact Fin.ext (by have h : (y 0).val < 1 := (y 0).isLt; show (y 0).val = 0; omega)
  | ⟨1, _⟩ => rfl
  | ⟨2, _⟩ => rfl
  | ⟨3, _⟩ => rfl
theorem block3_eq (y : S1x3x299x299.Idx) : y = ix4 ⟨0, Nat.one_pos⟩ (chan3 y) (row3 y) (col3 y) := by
  funext a
  match a with
  | ⟨0, _⟩ => exact Fin.ext (by have h : (y 0).val < 1 := (y 0).isLt; show (y 0).val = 0; omega)
  | ⟨1, _⟩ => rfl
  | ⟨2, _⟩ => rfl
  | ⟨3, _⟩ => rfl

theorem chan4_ix4 (a : Fin 1) (k : Fin 4) (h w : Fin 299) : chan4 (ix4 a k h w) = k := rfl
theorem row4_ix4 (a : Fin 1) (k : Fin 4) (h w : Fin 299) : row4 (ix4 a k h w) = h := rfl
theorem col4_ix4 (a : Fin 1) (k : Fin 4) (h w : Fin 299) : col4 (ix4 a k h w) = w := rfl
theorem chan3_ix4 (a : Fin 1) (k : Fin 3) (h w : Fin 299) : chan3 (ix4 a k h w) = k := rfl
theorem row3_ix4 (a : Fin 1) (k : Fin 3) (h w : Fin 299) : row3 (ix4 a k h w) = h := rfl
theorem col3_ix4 (a : Fin 1) (k : Fin 3) (h w : Fin 299) : col3 (ix4 a k h w) = w := rfl

/-- Plane 0's rectangle of a 4-plane block places the plane index (·, ·, h, w) at (0, 0, h, w). -/
theorem place4_0 (x : S1x1x299x299.Idx) : r0_0.emb x = (ix4 ⟨0, Nat.one_pos⟩ ⟨0, by decide⟩ (rowOf x) (colOf x) : S1x4x299x299.Idx) := by
  show r0_0.idx x = _
  conv_lhs => rw [plane_idx_eq x]
  exact idx_plane0 _ _

/-- Plane 1's rectangle of a 4-plane block places the plane index (·, ·, h, w) at (0, 1, h, w). -/
theorem place4_1 (x : S1x1x299x299.Idx) : r0_1.emb x = (ix4 ⟨0, Nat.one_pos⟩ ⟨1, by decide⟩ (rowOf x) (colOf x) : S1x4x299x299.Idx) := by
  show r0_1.idx x = _
  conv_lhs => rw [plane_idx_eq x]
  exact idx_plane1 _ _

/-- Plane 2's rectangle of a 4-plane block places the plane index (·, ·, h, w) at (0, 2, h, w). -/
theorem place4_2 (x : S1x1x299x299.Idx) : r0_2.emb x = (ix4 ⟨0, Nat.one_pos⟩ ⟨2, by decide⟩ (rowOf x) (colOf x) : S1x4x299x299.Idx) := by
  show r0_2.idx x = _
  conv_lhs => rw [plane_idx_eq x]
  exact idx_plane2 _ _

/-- Plane 3's rectangle of a 4-plane block places the plane index (·, ·, h, w) at (0, 3, h, w). -/
theorem place4_3 (x : S1x1x299x299.Idx) : r0_3.emb x = (ix4 ⟨0, Nat.one_pos⟩ ⟨3, by decide⟩ (rowOf x) (colOf x) : S1x4x299x299.Idx) := by
  show r0_3.idx x = _
  conv_lhs => rw [plane_idx_eq x]
  exact idx_plane3 _ _

/-- Plane 0's rectangle of a 3-plane block places the plane index (·, ·, h, w) at (0, 0, h, w). -/
theorem place3_0 (x : S1x1x299x299.Idx) : r0_4.emb x = (ix4 ⟨0, Nat.one_pos⟩ ⟨0, by decide⟩ (rowOf x) (colOf x) : S1x3x299x299.Idx) := by
  have h0 : (x 0).val < 1 := (x 0).isLt
  have h1 : (x 1).val < 1 := (x 1).isLt
  funext a
  match a with
  | ⟨0, _⟩ => exact Fin.ext (by show 0 + 1 * (x 0).val = 0; omega)
  | ⟨1, _⟩ => exact Fin.ext (by show 0 + 1 * (x 1).val = 0; omega)
  | ⟨2, _⟩ => exact Fin.ext (by show 0 + 1 * (x 2).val = (x 2).val; omega)
  | ⟨3, _⟩ => exact Fin.ext (by show 0 + 1 * (x 3).val = (x 3).val; omega)

/-- Plane 1's rectangle of a 3-plane block places the plane index (·, ·, h, w) at (0, 1, h, w). -/
theorem place3_1 (x : S1x1x299x299.Idx) : r0_5.emb x = (ix4 ⟨0, Nat.one_pos⟩ ⟨1, by decide⟩ (rowOf x) (colOf x) : S1x3x299x299.Idx) := by
  have h0 : (x 0).val < 1 := (x 0).isLt
  have h1 : (x 1).val < 1 := (x 1).isLt
  funext a
  match a with
  | ⟨0, _⟩ => exact Fin.ext (by show 0 + 1 * (x 0).val = 0; omega)
  | ⟨1, _⟩ => exact Fin.ext (by show 1 + 1 * (x 1).val = 1; omega)
  | ⟨2, _⟩ => exact Fin.ext (by show 0 + 1 * (x 2).val = (x 2).val; omega)
  | ⟨3, _⟩ => exact Fin.ext (by show 0 + 1 * (x 3).val = (x 3).val; omega)

/-- Plane 2's rectangle of a 3-plane block places the plane index (·, ·, h, w) at (0, 2, h, w). -/
theorem place3_2 (x : S1x1x299x299.Idx) : r0_6.emb x = (ix4 ⟨0, Nat.one_pos⟩ ⟨2, by decide⟩ (rowOf x) (colOf x) : S1x3x299x299.Idx) := by
  have h0 : (x 0).val < 1 := (x 0).isLt
  have h1 : (x 1).val < 1 := (x 1).isLt
  funext a
  match a with
  | ⟨0, _⟩ => exact Fin.ext (by show 0 + 1 * (x 0).val = 0; omega)
  | ⟨1, _⟩ => exact Fin.ext (by show 2 + 1 * (x 1).val = 2; omega)
  | ⟨2, _⟩ => exact Fin.ext (by show 0 + 1 * (x 2).val = (x 2).val; omega)
  | ⟨3, _⟩ => exact Fin.ext (by show 0 + 1 * (x 3).val = (x 3).val; omega)

section BlockFormulas

variable (X O : FVec Ideal S16x299x299x4 .f32) (b : Fin 16) (x0 x1 : Vec Ideal S1x4x299x299 .f32)
  (hx : ∀ (k : Fin 4) (h w : Fin 299), x0 (ix4 ⟨0, Nat.one_pos⟩ k h w) = X (ix4 b h w k))
  (ho : ∀ (k : Fin 4) (h w : Fin 299), x1 (ix4 ⟨0, Nat.one_pos⟩ k h w) = O (ix4 b h w k))

include hx ho in
/-- The composite's block. -/
theorem out2_apply (y : S1x4x299x299.Idx) :
    out0_2 x0 x1 y = compPlanes X O (ix4 b (chan4 y) (row4 y) (col4 y)) := by
  unfold out0_2
  refine View.canon_apply_of_pieces (Val := Elt Ideal) (e := .f32) (fun y => compPlanes X O (ix4 b (chan4 y) (row4 y) (col4 y))) _ ?_ y (cover0_2 _ _ _ _ y)
  intro pc hpc x
  simp only [List.mem_cons, List.mem_nil_iff, or_false] at hpc
  rcases hpc with rfl | rfl | rfl | rfl
  · show k0_pay19 (k0_pay15 (k0_pay8 (View.ld x1 r0_3))) x = compPlanes X O (ix4 b (chan4 (r0_3.emb x)) (row4 (r0_3.emb x)) (col4 (r0_3.emb x)))
    rw [place4_3, chan4_ix4, row4_ix4, col4_ix4, compPlanes_at, composite_alpha]
    show clip (x1 (ix4 ⟨0, Nat.one_pos⟩ 3 (rowOf x) (colOf x))) = comp X O b (rowOf x) (colOf x) 3
    rw [ho, comp_alpha]
  · show k0_pay18 (k0_pay4 (View.ld x0 r0_2)) (k0_pay7 (View.ld x1 r0_2)) (k0_pay9 (View.ld x0 r0_3)) (k0_pay10 (View.ld x1 r0_3)) x
        = compPlanes X O (ix4 b (chan4 (r0_2.emb x)) (row4 (r0_2.emb x)) (col4 (r0_2.emb x)))
    rw [place4_2, chan4_ix4, row4_ix4, col4_ix4, compPlanes_at, composite_blue]
    show clip (blend (x0 (ix4 ⟨0, Nat.one_pos⟩ 2 (rowOf x) (colOf x))) (x0 (ix4 ⟨0, Nat.one_pos⟩ 3 (rowOf x) (colOf x)))
        (x1 (ix4 ⟨0, Nat.one_pos⟩ 2 (rowOf x) (colOf x))) (x1 (ix4 ⟨0, Nat.one_pos⟩ 3 (rowOf x) (colOf x)))) = comp X O b (rowOf x) (colOf x) (up 2)
    rw [hx, hx, ho, ho, comp_colour]; rfl
  · show k0_pay17 (k0_pay3 (View.ld x0 r0_1)) (k0_pay6 (View.ld x1 r0_1)) (k0_pay9 (View.ld x0 r0_3)) (k0_pay10 (View.ld x1 r0_3)) x
        = compPlanes X O (ix4 b (chan4 (r0_1.emb x)) (row4 (r0_1.emb x)) (col4 (r0_1.emb x)))
    rw [place4_1, chan4_ix4, row4_ix4, col4_ix4, compPlanes_at, composite_green]
    show clip (blend (x0 (ix4 ⟨0, Nat.one_pos⟩ 1 (rowOf x) (colOf x))) (x0 (ix4 ⟨0, Nat.one_pos⟩ 3 (rowOf x) (colOf x)))
        (x1 (ix4 ⟨0, Nat.one_pos⟩ 1 (rowOf x) (colOf x))) (x1 (ix4 ⟨0, Nat.one_pos⟩ 3 (rowOf x) (colOf x)))) = comp X O b (rowOf x) (colOf x) (up 1)
    rw [hx, hx, ho, ho, comp_colour]; rfl
  · show k0_pay16 (k0_pay11 (View.ld x0 r0_0) (View.ld x0 r0_3) (View.ld x1 r0_0) (View.ld x1 r0_3)) x
        = compPlanes X O (ix4 b (chan4 (r0_0.emb x)) (row4 (r0_0.emb x)) (col4 (r0_0.emb x)))
    rw [place4_0, chan4_ix4, row4_ix4, col4_ix4, compPlanes_at, composite_red]
    show clip (blend (x0 (ix4 ⟨0, Nat.one_pos⟩ 0 (rowOf x) (colOf x))) (x0 (ix4 ⟨0, Nat.one_pos⟩ 3 (rowOf x) (colOf x)))
        (x1 (ix4 ⟨0, Nat.one_pos⟩ 0 (rowOf x) (colOf x))) (x1 (ix4 ⟨0, Nat.one_pos⟩ 3 (rowOf x) (colOf x)))) = comp X O b (rowOf x) (colOf x) (up 0)
    rw [hx, hx, ho, ho, comp_colour]; rfl

include hx ho in
/-- The composite-over-white block. -/
theorem out3_apply (y : S1x3x299x299.Idx) :
    out0_3 x0 x1 y = whitePlanes X O (ix4 b (chan3 y) (row3 y) (col3 y)) := by
  unfold out0_3
  refine View.canon_apply_of_pieces (Val := Elt Ideal) (e := .f32) (fun y => whitePlanes X O (ix4 b (chan3 y) (row3 y) (col3 y))) _ ?_ y (cover0_3 _ _ _ y)
  intro pc hpc x
  simp only [List.mem_cons, List.mem_nil_iff, or_false] at hpc
  rcases hpc with rfl | rfl | rfl
  · show k0_pay23 (k0_pay14 (k0_pay4 (View.ld x0 r0_2)) (k0_pay7 (View.ld x1 r0_2)) (k0_pay9 (View.ld x0 r0_3)) (k0_pay10 (View.ld x1 r0_3))) (k0_pay15 (k0_pay8 (View.ld x1 r0_3))) x
        = whitePlanes X O (ix4 b (chan3 (r0_6.emb x)) (row3 (r0_6.emb x)) (col3 (r0_6.emb x)))
    rw [place3_2, chan3_ix4, row3_ix4, col3_ix4, whitePlanes_at, white_blue]
    show white (clip (x1 (ix4 ⟨0, Nat.one_pos⟩ 3 (rowOf x) (colOf x)))) (clip (blend (x0 (ix4 ⟨0, Nat.one_pos⟩ 2 (rowOf x) (colOf x))) (x0 (ix4 ⟨0, Nat.one_pos⟩ 3 (rowOf x) (colOf x))) (x1 (ix4 ⟨0, Nat.one_pos⟩ 2 (rowOf x) (colOf x))) (x1 (ix4 ⟨0, Nat.one_pos⟩ 3 (rowOf x) (colOf x)))))
        = white (comp X O b (rowOf x) (colOf x) 3) (comp X O b (rowOf x) (colOf x) (up 2))
    simp only [hx, ho, comp_alpha, comp_colour]; rfl
  · show k0_pay22 (k0_pay13 (k0_pay3 (View.ld x0 r0_1)) (k0_pay6 (View.ld x1 r0_1)) (k0_pay9 (View.ld x0 r0_3)) (k0_pay10 (View.ld x1 r0_3))) (k0_pay15 (k0_pay8 (View.ld x1 r0_3))) x
        = whitePlanes X O (ix4 b (chan3 (r0_5.emb x)) (row3 (r0_5.emb x)) (col3 (r0_5.emb x)))
    rw [place3_1, chan3_ix4, row3_ix4, col3_ix4, whitePlanes_at, white_green]
    show white (clip (x1 (ix4 ⟨0, Nat.one_pos⟩ 3 (rowOf x) (colOf x)))) (clip (blend (x0 (ix4 ⟨0, Nat.one_pos⟩ 1 (rowOf x) (colOf x))) (x0 (ix4 ⟨0, Nat.one_pos⟩ 3 (rowOf x) (colOf x))) (x1 (ix4 ⟨0, Nat.one_pos⟩ 1 (rowOf x) (colOf x))) (x1 (ix4 ⟨0, Nat.one_pos⟩ 3 (rowOf x) (colOf x)))))
        = white (comp X O b (rowOf x) (colOf x) 3) (comp X O b (rowOf x) (colOf x) (up 1))
    simp only [hx, ho, comp_alpha, comp_colour]; rfl
  · show k0_pay21 (k0_pay12 (k0_pay11 (View.ld x0 r0_0) (View.ld x0 r0_3) (View.ld x1 r0_0) (View.ld x1 r0_3))) (k0_pay15 (k0_pay8 (View.ld x1 r0_3))) x
        = whitePlanes X O (ix4 b (chan3 (r0_4.emb x)) (row3 (r0_4.emb x)) (col3 (r0_4.emb x)))
    rw [place3_0, chan3_ix4, row3_ix4, col3_ix4, whitePlanes_at, white_red]
    show white (clip (x1 (ix4 ⟨0, Nat.one_pos⟩ 3 (rowOf x) (colOf x)))) (clip (blend (x0 (ix4 ⟨0, Nat.one_pos⟩ 0 (rowOf x) (colOf x))) (x0 (ix4 ⟨0, Nat.one_pos⟩ 3 (rowOf x) (colOf x))) (x1 (ix4 ⟨0, Nat.one_pos⟩ 0 (rowOf x) (colOf x))) (x1 (ix4 ⟨0, Nat.one_pos⟩ 3 (rowOf x) (colOf x)))))
        = white (comp X O b (rowOf x) (colOf x) 3) (comp X O b (rowOf x) (colOf x) (up 0))
    simp only [hx, ho, comp_alpha, comp_colour]; rfl

include ho in
/-- The original-over-white block. -/
theorem out4_apply (y : S1x3x299x299.Idx) :
    out0_4 x0 x1 y = origPlanes O (ix4 b (chan3 y) (row3 y) (col3 y)) := by
  unfold out0_4
  refine View.canon_apply_of_pieces (Val := Elt Ideal) (e := .f32) (fun y => origPlanes O (ix4 b (chan3 y) (row3 y) (col3 y))) _ ?_ y (cover0_4 _ _ _ y)
  intro pc hpc x
  simp only [List.mem_cons, List.mem_nil_iff, or_false] at hpc
  rcases hpc with rfl | rfl | rfl
  · show k0_pay2 (k0_pay7 (View.ld x1 r0_2)) (k0_pay10 (View.ld x1 r0_3)) x
        = origPlanes O (ix4 b (chan3 (r0_6.emb x)) (row3 (r0_6.emb x)) (col3 (r0_6.emb x)))
    rw [place3_2, chan3_ix4, row3_ix4, col3_ix4, origPlanes_at, orig_blue]
    show white (x1 (ix4 ⟨0, Nat.one_pos⟩ 3 (rowOf x) (colOf x))) (x1 (ix4 ⟨0, Nat.one_pos⟩ 2 (rowOf x) (colOf x))) = white (O (ix4 b (rowOf x) (colOf x) 3)) (O (ix4 b (rowOf x) (colOf x) (up 2)))
    simp only [ho]; rfl
  · show k0_pay1 (k0_pay25 (k0_pay6 (View.ld x1 r0_1)) (k0_pay10 (View.ld x1 r0_3))) x
        = origPlanes O (ix4 b (chan3 (r0_5.emb x)) (row3 (r0_5.emb x)) (col3 (r0_5.emb x)))
    rw [place3_1, chan3_ix4, row3_ix4, col3_ix4, origPlanes_at, orig_green]
    show white (x1 (ix4 ⟨0, Nat.one_pos⟩ 3 (rowOf x) (colOf x))) (x1 (ix4 ⟨0, Nat.one_pos⟩ 1 (rowOf x) (colOf x))) = white (O (ix4 b (rowOf x) (colOf x) 3)) (O (ix4 b (rowOf x) (colOf x) (up 1)))
    simp only [ho]; rfl
  · show k0_pay24 (k0_pay5 (View.ld x1 r0_0)) (k0_pay10 (View.ld x1 r0_3)) x
        = origPlanes O (ix4 b (chan3 (r0_4.emb x)) (row3 (r0_4.emb x)) (col3 (r0_4.emb x)))
    rw [place3_0, chan3_ix4, row3_ix4, col3_ix4, origPlanes_at, orig_red]
    show white (x1 (ix4 ⟨0, Nat.one_pos⟩ 3 (rowOf x) (colOf x))) (x1 (ix4 ⟨0, Nat.one_pos⟩ 0 (rowOf x) (colOf x))) = white (O (ix4 b (rowOf x) (colOf x) 3)) (O (ix4 b (rowOf x) (colOf x) (up 0)))
    simp only [ho]; rfl

end BlockFormulas

/-! ## The output arrays after the run -/

/-- What point `t` writes back to window 2's array is block `t` of the formula. -/
theorem flushed2_eq (c : Dev nD) (t : Fin cfg0.N) :
    (dats m 0 c).flushed 2 t = ((cfg0.win 2).blk t).view.read (Elt Ideal) (compPlanes (gathered m c) (original m c)) := by
  show (cfg0.win 2).cut (grid0.coords t) ((dats m 0 c).after 2 t) = _
  rw [after0_2]
  funext y
  show out0_2 (iblk m c 0 t) (iblk m c 1 t) y = (compPlanes (gathered m c) (original m c)) (((cfg0.win 2).blk t).view.emb y)
  refine (out2_apply (gathered m c) (original m c) (batchOf t) (iblk m c 0 t) (iblk m c 1 t) (xblock_at m c t) (oblock_at m c t) y).trans ?_
  congr 1
  conv_rhs => rw [block4_eq y]
  exact (emb2 t _ _ _).symm

/-- An array index is in point `t`'s block iff each coordinate is in the block's range. -/
theorem mem_blk2 (t : Fin cfg0.N) (i : S16x4x299x299.Idx) :
    i ∈ ((cfg0.win 2).blk t).view.set ↔ ∀ a : Fin 4, win0_2.index t a * S1x4x299x299.size a ≤ (i a).val
      ∧ (i a).val < win0_2.index t a * S1x4x299x299.size a + S1x4x299x299.size a := by
  show i ∈ ((View.whole main_v12_0).slice (win0_2.rect t)).set ↔ _
  rw [View.set_slice_whole, Rect.mem_set_unit]
  exact Iff.rfl

/-- Every array index is in the block of its own batch element. -/
theorem cover2 (i : S16x4x299x299.Idx) :
    ∃ t : Fin cfg0.N, (cfg0.win 2).flush t = true ∧ i ∈ ((cfg0.win 2).blk t).view.set := by
  have hi : (i 0).val < 16 := (i 0).isLt
  have h1 : (i 1).val < 4 := (i 1).isLt
  have h2 : (i 2).val < 299 := (i 2).isLt
  have h3 : (i 3).val < 299 := (i 3).isLt
  have hN : (i 0).val < cfg0.N := by rw [show cfg0.N = 16 from N_0]; exact hi
  refine ⟨⟨(i 0).val, hN⟩, flush0_2 _, ?_⟩
  rw [mem_blk2]
  obtain ⟨-, -, ⟨e0, e1, e2, e3⟩, -, -⟩ := idx_facts ⟨(i 0).val, hN⟩
  have e0' : win0_2.index ⟨(i 0).val, hN⟩ (0 : Fin 4) = (i 0).val := e0
  intro a
  match a with
  | ⟨0, _⟩ =>
    show win0_2.index ⟨(i 0).val, hN⟩ (0 : Fin 4) * 1 ≤ (i 0).val ∧ (i 0).val < win0_2.index ⟨(i 0).val, hN⟩ (0 : Fin 4) * 1 + 1
    omega
  | ⟨1, _⟩ =>
    show win0_2.index ⟨(i 0).val, hN⟩ (1 : Fin 4) * 4 ≤ (i 1).val ∧ (i 1).val < win0_2.index ⟨(i 0).val, hN⟩ (1 : Fin 4) * 4 + 4
    omega
  | ⟨2, _⟩ =>
    show win0_2.index ⟨(i 0).val, hN⟩ (2 : Fin 4) * 299 ≤ (i 2).val ∧ (i 2).val < win0_2.index ⟨(i 0).val, hN⟩ (2 : Fin 4) * 299 + 299
    omega
  | ⟨3, _⟩ =>
    show win0_2.index ⟨(i 0).val, hN⟩ (3 : Fin 4) * 299 ≤ (i 3).val ∧ (i 3).val < win0_2.index ⟨(i 0).val, hN⟩ (3 : Fin 4) * 299 + 299
    omega

/-- Window 2's array after the run is the formula. -/
theorem final2 (c : Dev nD) : (dats m 0 c).arrAt 2 cfg0.N = (compPlanes (gathered m c) (original m c)) :=
  (dats m 0 c).arrAt_eq_of_cover 2 _ (fun t _ => flushed2_eq m c t) cover2

/-- What point `t` writes back to window 3's array is block `t` of the formula. -/
theorem flushed3_eq (c : Dev nD) (t : Fin cfg0.N) :
    (dats m 0 c).flushed 3 t = ((cfg0.win 3).blk t).view.read (Elt Ideal) (whitePlanes (gathered m c) (original m c)) := by
  show (cfg0.win 3).cut (grid0.coords t) ((dats m 0 c).after 3 t) = _
  rw [after0_3]
  funext y
  show out0_3 (iblk m c 0 t) (iblk m c 1 t) y = (whitePlanes (gathered m c) (original m c)) (((cfg0.win 3).blk t).view.emb y)
  refine (out3_apply (gathered m c) (original m c) (batchOf t) (iblk m c 0 t) (iblk m c 1 t) (xblock_at m c t) (oblock_at m c t) y).trans ?_
  congr 1
  conv_rhs => rw [block3_eq y]
  exact (emb3 t _ _ _).symm

/-- An array index is in point `t`'s block iff each coordinate is in the block's range. -/
theorem mem_blk3 (t : Fin cfg0.N) (i : S16x3x299x299.Idx) :
    i ∈ ((cfg0.win 3).blk t).view.set ↔ ∀ a : Fin 4, win0_3.index t a * S1x3x299x299.size a ≤ (i a).val
      ∧ (i a).val < win0_3.index t a * S1x3x299x299.size a + S1x3x299x299.size a := by
  show i ∈ ((View.whole main_v12_1).slice (win0_3.rect t)).set ↔ _
  rw [View.set_slice_whole, Rect.mem_set_unit]
  exact Iff.rfl

/-- Every array index is in the block of its own batch element. -/
theorem cover3 (i : S16x3x299x299.Idx) :
    ∃ t : Fin cfg0.N, (cfg0.win 3).flush t = true ∧ i ∈ ((cfg0.win 3).blk t).view.set := by
  have hi : (i 0).val < 16 := (i 0).isLt
  have h1 : (i 1).val < 3 := (i 1).isLt
  have h2 : (i 2).val < 299 := (i 2).isLt
  have h3 : (i 3).val < 299 := (i 3).isLt
  have hN : (i 0).val < cfg0.N := by rw [show cfg0.N = 16 from N_0]; exact hi
  refine ⟨⟨(i 0).val, hN⟩, flush0_3 _, ?_⟩
  rw [mem_blk3]
  obtain ⟨-, -, -, ⟨e0, e1, e2, e3⟩, -⟩ := idx_facts ⟨(i 0).val, hN⟩
  have e0' : win0_3.index ⟨(i 0).val, hN⟩ (0 : Fin 4) = (i 0).val := e0
  intro a
  match a with
  | ⟨0, _⟩ =>
    show win0_3.index ⟨(i 0).val, hN⟩ (0 : Fin 4) * 1 ≤ (i 0).val ∧ (i 0).val < win0_3.index ⟨(i 0).val, hN⟩ (0 : Fin 4) * 1 + 1
    omega
  | ⟨1, _⟩ =>
    show win0_3.index ⟨(i 0).val, hN⟩ (1 : Fin 4) * 3 ≤ (i 1).val ∧ (i 1).val < win0_3.index ⟨(i 0).val, hN⟩ (1 : Fin 4) * 3 + 3
    omega
  | ⟨2, _⟩ =>
    show win0_3.index ⟨(i 0).val, hN⟩ (2 : Fin 4) * 299 ≤ (i 2).val ∧ (i 2).val < win0_3.index ⟨(i 0).val, hN⟩ (2 : Fin 4) * 299 + 299
    omega
  | ⟨3, _⟩ =>
    show win0_3.index ⟨(i 0).val, hN⟩ (3 : Fin 4) * 299 ≤ (i 3).val ∧ (i 3).val < win0_3.index ⟨(i 0).val, hN⟩ (3 : Fin 4) * 299 + 299
    omega

/-- Window 3's array after the run is the formula. -/
theorem final3 (c : Dev nD) : (dats m 0 c).arrAt 3 cfg0.N = (whitePlanes (gathered m c) (original m c)) :=
  (dats m 0 c).arrAt_eq_of_cover 3 _ (fun t _ => flushed3_eq m c t) cover3

/-- What point `t` writes back to window 4's array is block `t` of the formula. -/
theorem flushed4_eq (c : Dev nD) (t : Fin cfg0.N) :
    (dats m 0 c).flushed 4 t = ((cfg0.win 4).blk t).view.read (Elt Ideal) (origPlanes (original m c)) := by
  show (cfg0.win 4).cut (grid0.coords t) ((dats m 0 c).after 4 t) = _
  rw [after0_4]
  funext y
  show out0_4 (iblk m c 0 t) (iblk m c 1 t) y = (origPlanes (original m c)) (((cfg0.win 4).blk t).view.emb y)
  refine (out4_apply (original m c) (batchOf t) (iblk m c 0 t) (iblk m c 1 t) (oblock_at m c t) y).trans ?_
  congr 1
  conv_rhs => rw [block3_eq y]
  exact (emb4 t _ _ _).symm

/-- An array index is in point `t`'s block iff each coordinate is in the block's range. -/
theorem mem_blk4 (t : Fin cfg0.N) (i : S16x3x299x299.Idx) :
    i ∈ ((cfg0.win 4).blk t).view.set ↔ ∀ a : Fin 4, win0_4.index t a * S1x3x299x299.size a ≤ (i a).val
      ∧ (i a).val < win0_4.index t a * S1x3x299x299.size a + S1x3x299x299.size a := by
  show i ∈ ((View.whole main_v12_2).slice (win0_4.rect t)).set ↔ _
  rw [View.set_slice_whole, Rect.mem_set_unit]
  exact Iff.rfl

/-- Every array index is in the block of its own batch element. -/
theorem cover4 (i : S16x3x299x299.Idx) :
    ∃ t : Fin cfg0.N, (cfg0.win 4).flush t = true ∧ i ∈ ((cfg0.win 4).blk t).view.set := by
  have hi : (i 0).val < 16 := (i 0).isLt
  have h1 : (i 1).val < 3 := (i 1).isLt
  have h2 : (i 2).val < 299 := (i 2).isLt
  have h3 : (i 3).val < 299 := (i 3).isLt
  have hN : (i 0).val < cfg0.N := by rw [show cfg0.N = 16 from N_0]; exact hi
  refine ⟨⟨(i 0).val, hN⟩, flush0_4 _, ?_⟩
  rw [mem_blk4]
  obtain ⟨-, -, -, -, ⟨e0, e1, e2, e3⟩⟩ := idx_facts ⟨(i 0).val, hN⟩
  have e0' : win0_4.index ⟨(i 0).val, hN⟩ (0 : Fin 4) = (i 0).val := e0
  intro a
  match a with
  | ⟨0, _⟩ =>
    show win0_4.index ⟨(i 0).val, hN⟩ (0 : Fin 4) * 1 ≤ (i 0).val ∧ (i 0).val < win0_4.index ⟨(i 0).val, hN⟩ (0 : Fin 4) * 1 + 1
    omega
  | ⟨1, _⟩ =>
    show win0_4.index ⟨(i 0).val, hN⟩ (1 : Fin 4) * 3 ≤ (i 1).val ∧ (i 1).val < win0_4.index ⟨(i 0).val, hN⟩ (1 : Fin 4) * 3 + 3
    omega
  | ⟨2, _⟩ =>
    show win0_4.index ⟨(i 0).val, hN⟩ (2 : Fin 4) * 299 ≤ (i 2).val ∧ (i 2).val < win0_4.index ⟨(i 0).val, hN⟩ (2 : Fin 4) * 299 + 299
    omega
  | ⟨3, _⟩ =>
    show win0_4.index ⟨(i 0).val, hN⟩ (3 : Fin 4) * 299 ≤ (i 3).val ∧ (i 3).val < win0_4.index ⟨(i 0).val, hN⟩ (3 : Fin 4) * 299 + 299
    omega

/-- Window 4's array after the run is the formula. -/
theorem final4 (c : Dev nD) : (dats m 0 c).arrAt 4 cfg0.N = (origPlanes (original m c)) :=
  (dats m 0 c).arrAt_eq_of_cover 4 _ (fun t _ => flushed4_eq m c t) cover4

end Cert.KernelIdeal.Blocks

end
-- ==== Proof.KernelTake.lean ====
/-
  The kernel's `take`: its result buffer from the table test and the gathered rows, and with it the first result `x`
  as the weighted sum of the taken rows.

  Inside the called function every value passes through its buffer's own type and back, which changes nothing
  (`unwrap`); what is left is: the gathered rows where the test holds, the fill pattern elsewhere.
-/
import proofs.«413209_j10685878633070_3_alg».proof.Proof.KernelPrefix

noncomputable section

namespace Cert.KernelIdeal.Prefix

open Cert.KernelIdeal Cert.KernelIdeal.Gen Idealize.ShloMosaic Idealize.ShloMosaic.TcCoe Idealize.SL.Sem
open Idealize.ShloMosaic.StableHlo

variable {F : FTy → Type} [FloatOps F]

/-- Passing the test `M`, the rows `G` and the fill pattern through the call's buffers changes nothing. -/
theorem unwrap (M : S16x299x299x8.Idx → BitVec 1) (G : S16x299x299x8x4.Idx → F FTy.f32) :
    (main_call0.v16.toBuf (Val := Elt F)
      (select
        (main_call0.v14.ofBuf (main_call0.v14.toBuf (Val := Elt F)
            (broadcastInDim S16x299x299x8x4 ![0, 1, 2, 3] bcast_S16x299x299x8_S16x299x299x8x4_0_1_2_3
              (main_call0.v12.ofBuf (main_call0.v12.toBuf (Val := Elt F) M)))))
        (main_call0.v13.ofBuf (main_call0.v13.toBuf (Val := Elt F) G))
        (main_call0.v15.ofBuf (main_call0.v15.toBuf (Val := Elt F)
            (broadcastInDim S16x299x299x8x4 ![] bcast_S_S16x299x299x8x4
              (main_call0.cst.ofBuf (main_call0.cst.toBuf (Val := Elt F) (constant S_ FTy.f32 2143289344#32)))))))
      : S16x299x299x8x4.Idx → Elt F .f32)
    = select (broadcastInDim S16x299x299x8x4 ![0, 1, 2, 3] bcast_S16x299x299x8_S16x299x299x8x4_0_1_2_3 (main_call0.v12.toBuf (Val := Elt F) M))
        (main_call0.v13.toBuf (Val := Elt F) G)
        (broadcastInDim S16x299x299x8x4 ![] bcast_S_S16x299x299x8x4 (constant S_ FTy.f32 2143289344#32)) := by
  rfl

variable (m : (ℓ : Loc nD τ sig) → Buf (Elt F) ℓ)

/-- `take`'s result from the test and the gathered rows: the rows where the test holds, the fill pattern elsewhere. -/
theorem V_taken_step (c : Dev nD) :
    (V m c main_v5 : S16x299x299x8x4.Idx → Elt F .f32)
      = select (broadcastInDim S16x299x299x8x4 ![0, 1, 2, 3] bcast_S16x299x299x8_S16x299x299x8x4_0_1_2_3 (V m c main_call0_v12))
          (V m c main_call0_v13)
          (broadcastInDim S16x299x299x8x4 ![] bcast_S_S16x299x299x8x4 (constant S_ .f32 0x7FC00000#32)) := by
  host_prefix
  after_results_simp
  exact unwrap _ _

/-- The first result's buffer at region entry: the weighted sum of the taken rows. -/
theorem V_main_v9 (c : Dev nD) :
    (V m c main_v9 : S16x299x299x4.Idx → Elt F .f32)
      = weighted (taken (m ((c : Thread nD τ).loc main_arg0)) (idxOf (m ((c : Thread nD τ).loc main_arg1))))
          (wOf (m ((c : Thread nD τ).loc main_arg1))) := by
  rw [V_x_step, V_taken_step, V_inTable, V_rows, V_weights]
  rfl

end Cert.KernelIdeal.Prefix

end
-- ==== Proof.PreDecode.lean ====
/-
  The precondition, read back at an index.

  The statement's precondition is all ones exactly when every float input is finite AND every index word — the second
  input's plane 1 along its axis 1, converted to a 32-bit integer, which is the word both programs index the table
  with — lies in `[-200000, 200000)` read signed: the range in which the reference's own `table[idx]` (negative indices
  counted from the end) stays inside the table's 200000 rows. The finiteness conjuncts are not used by this
  certificate; the range conjunct is read here, at every index of the index array.
-/
import proofs.«413209_j10685878633070_3_alg».proof.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.PreDecode

open Idealize.ShloMosaic Cert.Pre_finite_inputs

variable [Cert.Pre_finite_inputs.Facts]
open Cert.Pre_finite_inputs.Facts

variable {F : FTy → Type} [FloatOps F]

/-- The index words: plane 1 of the second input, converted. -/
def indexWords (a1 : FVec F S16x2x299x299x8 .f32) : IVec S16x299x299x8 32 :=
  fptosi 32 (shapeCast S16x299x299x8
    ((extractStridedSlice S16x1x299x299x8 ![0, 1, 0, 0, 0] · slices_S16x2x299x299x8_S16x1x299x299x8_0_1_0_0_0) a1)
    shapeCasts_S16x1x299x299x8_S16x299x299x8)

instance : Subsingleton S_.Idx := ⟨fun _ _ => funext fun d => d.elim0⟩

/-- Under the precondition every index word is at least -200000 and below 200000, read signed. -/
theorem index_in_range (a0 : FVec F S200000x4 .f32) (a1 : FVec F S16x2x299x299x8 .f32) (a2 : FVec F S16x299x299x4 .f32)
    (h : fn (F := F) a0 a1 a2 = fun _ => 1#1) (i : S16x299x299x8.Idx) :
    IntOp.cmpi .sge (indexWords a1 i) 4294767296#32 = 1#1 ∧ IntOp.cmpi .slt (indexWords a1 i) 200000#32 = 1#1 := by
  have h0 := congrFun h ValueIdx.ix0
  dsimp only [fn, fn_part1] at h0
  have h1 := (IntOp.andi_eq_one.1 h0).2
  have h2 := Host.reduce_andi_all _ _ _ _ _ h1 i
  obtain ⟨hlo, hhi⟩ := IntOp.andi_eq_one.1 h2
  have b1 := StableHlo.Predicate.bcast_scalar bcast_S_S16x299x299x8 h_S_ (constantI S_ 32 4294767296#32) i
  have b2 := StableHlo.Predicate.bcast_scalar bcast_S_S16x299x299x8 h_S_ (constantI S_ 32 200000#32) i
  refine ⟨?_, ?_⟩
  · have e : IntOp.cmpi .sge (indexWords a1 i)
        (broadcastInDim S16x299x299x8 ![] bcast_S_S16x299x299x8 (constantI S_ 32 4294767296#32) i) = 1#1 := hlo
    rw [b1] at e
    exact e
  · have e : IntOp.cmpi .slt (indexWords a1 i)
        (broadcastInDim S16x299x299x8 ![] bcast_S_S16x299x299x8 (constantI S_ 32 200000#32) i) = 1#1 := hhi
    rw [b2] at e
    exact e

end Cert.PreDecode

end
-- ==== Proof.XBridge.lean ====
/-
  The first result: under the precondition the kernel's `x` is the reference's.

  The precondition puts every index word in [-200000, 200000); there `take`'s table test holds everywhere, the taken
  rows are the gathered rows, and the kernel's weighted sum is, operation for operation, the reference's: the same
  gather at the same wrapped indices, the same weight plane laid along the channels, the same sum over the 8 neighbours.
-/
import proofs.«413209_j10685878633070_3_alg».proof.Proof.KernelTake
import proofs.«413209_j10685878633070_3_alg».proof.Proof.PreDecode
import proofs.«413209_j10685878633070_3_alg».proof.Proof.Gen.ReferenceIdeal.Read

noncomputable section

namespace Cert.KernelIdeal.XBridge

open Cert.KernelIdeal Cert.KernelIdeal.Gen Cert.KernelIdeal.Prefix Idealize.ShloMosaic Idealize.ShloMosaic.TcCoe Idealize.SL.Sem

variable [Cert.Pre_finite_inputs.Facts]

/-- The kernel's index words are the words the precondition speaks of. -/
theorem idxOf_eq (a1 : FVec Ideal S16x2x299x299x8 .f32) : idxOf a1 = Cert.PreDecode.indexWords a1 := rfl

/-- Without the table test, the kernel's weighted sum is the reference's first result. -/
theorem weighted_rows_eq (a0 : FVec Ideal S200000x4 .f32) (a1 : FVec Ideal S16x2x299x299x8 .f32) :
    weighted (rows a0 (idxOf a1)) (wOf a1) = Cert.ReferenceIdeal.Read.val_main_v15 (F := Ideal) a0 a1 := by
  rfl

/-- Under the precondition the kernel's first result is the reference's. -/
theorem x_eq_ref (a0 : FVec Ideal S200000x4 .f32) (a1 : FVec Ideal S16x2x299x299x8 .f32) (a2 : FVec Ideal S16x299x299x4 .f32)
    (hpre : Cert.Pre_finite_inputs.fn (F := Ideal) a0 a1 a2 = fun _ => 1#1) :
    weighted (taken a0 (idxOf a1)) (wOf a1) = Cert.ReferenceIdeal.Read.val_main_v15 (F := Ideal) a0 a1 := by
  rw [taken_eq_rows a0 (idxOf a1) (fun i => by rw [idxOf_eq]; exact Cert.PreDecode.index_in_range a0 a1 a2 hpre i)]
  exact weighted_rows_eq a0 a1

end Cert.KernelIdeal.XBridge

end
-- ==== Proof.RefPixels.lean ====
/-
  The reference's images, pixel by pixel.

  With `X` the gathered image (the reference's first result, pixel-interleaved [16, 299, 299, 4]) and `o` the
  original image (the third input), at batch element `b`, row `h`, column `w`:
    the composite  at channel k < 3 is  clip (blend X_k X_alpha o_k o_alpha),  at alpha  clip o_alpha;
    its white-backed view (channel-first) at channel k is  white (composite alpha) (composite k);
    the original's white-backed view at channel k is  white o_alpha o_k.
  Each is the reference's own chain of slices, broadcasts, selects, a concatenation and the clip, read at the index.
-/
import proofs.«413209_j10685878633070_3_alg».proof.Proof.Gen.ReferenceIdeal.Read
import proofs.«413209_j10685878633070_3_alg».proof.Proof.Pixel
import Idealize.ShloMosaic.Lib.ValueIdx

noncomputable section

namespace Cert.ReferenceIdeal.Pixels

open Cert.ReferenceIdeal Cert.ReferenceIdeal.Gen Cert.ReferenceIdeal.Read Idealize.ShloMosaic Idealize.ShloMosaic.ValueIdx
open Cert.Pixel

variable (x0 : (⟨S200000x4, .f32⟩ : BufTy).Contents (Elt Ideal)) (x1 : (⟨S16x2x299x299x8, .f32⟩ : BufTy).Contents (Elt Ideal))
  (x2 : (⟨S16x299x299x4, .f32⟩ : BufTy).Contents (Elt Ideal))

/-- Two indices of a rank-4 array with equal coordinates are equal. -/
theorem idx4_ext {n0 n1 n2 n3 : Nat} {p q : (⟨4, ![n0, n1, n2, n3]⟩ : Shape).Idx}
    (h0 : (p 0).val = (q 0).val) (h1 : (p 1).val = (q 1).val) (h2 : (p 2).val = (q 2).val) (h3 : (p 3).val = (q 3).val) :
    p = q := by
  funext a
  match a with
  | ⟨0, _⟩ => exact Fin.ext h0
  | ⟨1, _⟩ => exact Fin.ext h1
  | ⟨2, _⟩ => exact Fin.ext h2
  | ⟨3, _⟩ => exact Fin.ext h3

/-- The composite's colour channel `k < 3`. -/
theorem rgba_colour (b : Fin 16) (h w : Fin 299) (k : Fin 3) :
    val_main_v30 (F := Ideal) x0 x1 x2 (ix4 b h w ⟨k.val, by omega⟩)
      = clip (blend (val_main_v15 (F := Ideal) x0 x1 (ix4 b h w ⟨k.val, by omega⟩)) (val_main_v15 (F := Ideal) x0 x1 (ix4 b h w 3))
          (x2 (ix4 b h w ⟨k.val, by omega⟩)) (x2 (ix4 b h w 3))) := by
  rw [val_main_v30_apply, val_main_call1_v4_apply, val_main_call1_v3_apply, val_main_cst_5_apply, val_main_call1_v2_apply,
    val_main_call1_v1_apply, val_main_call1_v0_apply, val_main_cst_4_apply]
  have hcat : val_main_v29 (F := Ideal) x0 x1 x2 (ix4 b h w ⟨k.val, by omega⟩) = val_main_v28 (F := Ideal) x0 x1 x2 (ix4 b h w k) := by
    unfold val_main_v29
    exact concatenate_pair_apply_left (t := S16x299x299x4) (s₁ := S16x299x299x3) (s₂ := S16x299x299x1) (3 : Fin 4) _ _
      concatenates_S16x299x299x3_S16x299x299x1_S16x299x299x4_d3 (ix4 b h w ⟨k.val, by omega⟩) rfl (ix4 b h w k)
      (fun a => match a with | ⟨0, _⟩ => rfl | ⟨1, _⟩ => rfl | ⟨2, _⟩ => rfl | ⟨3, _⟩ => rfl)
  rw [hcat, val_main_v28_apply, val_main_call0_v0_apply, val_main_v26_apply, val_main_v19_apply, val_main_v25_apply,
    val_main_cst_2_apply, val_main_v24_apply, val_main_v20_apply, val_main_v23_apply, val_main_v21_apply, val_main_v22_apply,
    val_main_v18_apply, val_main_v16_apply, val_main_v17_apply, val_main_cst_1_apply, val_main_v27_apply, val_main_cst_3_apply]
  rw [show idx_main_v19 (idx_main_call0_v0 (ix4 b h w k)) = ix4 b h w 3 from idx4_ext rfl rfl rfl rfl,
    show idx_main_v20 (ix4 b h w k) = ix4 b h w ⟨k.val, by omega⟩ from idx4_ext rfl rfl rfl rfl,
    show idx_main_v21 (ix4 b h w k) = ix4 b h w ⟨k.val, by omega⟩ from idx4_ext rfl rfl rfl rfl,
    show idx_main_v16 (idx_main_v22 (ix4 b h w k)) = ix4 b h w 3 from idx4_ext rfl rfl rfl rfl]
  rfl

/-- The composite's alpha channel: the original's alpha, clipped. -/
theorem rgba_alpha (b : Fin 16) (h w : Fin 299) :
    val_main_v30 (F := Ideal) x0 x1 x2 (ix4 b h w 3) = clip (x2 (ix4 b h w 3)) := by
  rw [val_main_v30_apply, val_main_call1_v4_apply, val_main_call1_v3_apply, val_main_cst_5_apply, val_main_call1_v2_apply,
    val_main_call1_v1_apply, val_main_call1_v0_apply, val_main_cst_4_apply]
  have hcat : val_main_v29 (F := Ideal) x0 x1 x2 (ix4 b h w 3) = val_main_v19 (F := Ideal) x2 (ix4 b h w 0) := by
    unfold val_main_v29
    exact concatenate_pair_apply_right (t := S16x299x299x4) (s₁ := S16x299x299x3) (s₂ := S16x299x299x1) (3 : Fin 4) _ _
      concatenates_S16x299x299x3_S16x299x299x1_S16x299x299x4_d3 (ix4 b h w 3) rfl rfl (ix4 b h w 0)
      (fun a hne => match a with
        | ⟨0, _⟩ => rfl | ⟨1, _⟩ => rfl | ⟨2, _⟩ => rfl | ⟨3, _⟩ => absurd rfl hne)
      rfl
  rw [hcat, val_main_v19_apply, show idx_main_v19 (ix4 b h w 0) = ix4 b h w 3 from idx4_ext rfl rfl rfl rfl]
  rfl

/-- The composite over white, channel-first: tested on the composite's own (clipped) alpha. -/
theorem cla_at (b : Fin 16) (k : Fin 3) (h w : Fin 299) :
    val_main_v39 (F := Ideal) x0 x1 x2 (ix4 b k h w)
      = white (val_main_v30 (F := Ideal) x0 x1 x2 (ix4 b h w 3)) (val_main_v30 (F := Ideal) x0 x1 x2 (ix4 b h w ⟨k.val, by omega⟩)) := by
  rw [val_main_v39_apply, val_main_call2_v0_apply, val_main_v35_apply, val_main_v33_apply, val_main_v31_apply, val_main_v34_apply,
    val_main_cst_6_apply, val_main_v36_apply, val_main_v31_apply, val_main_v38_apply, val_main_cst_7_apply]
  rw [show idx_main_v31 (idx_main_v33 (idx_main_call2_v0 (ix4 b k h w))) = ix4 b h w 3 from idx4_ext rfl rfl rfl rfl,
    show idx_main_v31 (idx_main_v36 (ix4 b k h w)) = ix4 b h w ⟨k.val, by omega⟩ from idx4_ext rfl rfl rfl rfl]
  rfl

/-- The original over white, channel-first: tested on the original's alpha. -/
theorem oricla_at (b : Fin 16) (k : Fin 3) (h w : Fin 299) :
    val_main_v46 (F := Ideal) x2 (ix4 b k h w) = white (x2 (ix4 b h w 3)) (x2 (ix4 b h w ⟨k.val, by omega⟩)) := by
  rw [val_main_v46_apply, val_main_call3_v0_apply, val_main_v42_apply, val_main_v40_apply, val_main_v32_apply, val_main_v41_apply,
    val_main_cst_8_apply, val_main_v43_apply, val_main_v32_apply, val_main_v45_apply, val_main_cst_9_apply]
  rw [show idx_main_v32 (idx_main_v40 (idx_main_call3_v0 (ix4 b k h w))) = ix4 b h w 3 from idx4_ext rfl rfl rfl rfl,
    show idx_main_v32 (idx_main_v43 (ix4 b k h w)) = ix4 b h w ⟨k.val, by omega⟩ from idx4_ext rfl rfl rfl rfl]
  rfl

/-- The composite channel-first (the reference's own transpose of it) is the composite at the pixel. -/
theorem rgba_planes (b : Fin 16) (k : Fin 4) (h w : Fin 299) :
    val_main_v31 (F := Ideal) x0 x1 x2 (ix4 b k h w) = val_main_v30 (F := Ideal) x0 x1 x2 (ix4 b h w k) := by
  rw [val_main_v31_apply, show idx_main_v31 (ix4 b k h w) = ix4 b h w k from idx4_ext rfl rfl rfl rfl]

end Cert.ReferenceIdeal.Pixels

end
-- ==== Proof.Agree.lean ====
/-
  The kernel's three image formulas are the reference's three images.

  With the gathered image `X` the reference's own first result and `O` the original image, at every pixel and channel:
  the composite formula is the reference's composite (its clip of the concatenated colour and alpha channels); so the
  kernel's channel-first composite, moved back to pixel-interleaved, is the reference's second result; the
  composite over white is its third; the original over white its fifth.
-/
import proofs.«413209_j10685878633070_3_alg».proof.Proof.Blocks
import proofs.«413209_j10685878633070_3_alg».proof.Proof.RefPixels
import Idealize.ShloMosaic.Lib.Pipeline.Value

noncomputable section

namespace Cert.Agree

open Cert.KernelIdeal.Blocks Cert.ReferenceIdeal.Pixels Cert.ReferenceIdeal.Read
open Idealize.ShloMosaic Idealize.ShloMosaic.ValueIdx Cert.Pixel

variable (x0 : FVec Ideal Cert.KernelIdeal.S200000x4 .f32) (x1 : FVec Ideal Cert.KernelIdeal.S16x2x299x299x8 .f32)
  (x2 : FVec Ideal Cert.KernelIdeal.S16x299x299x4 .f32)

/-- The composite formula at a pixel's channel is the reference's composite there. -/
theorem comp_eq (b : Fin 16) (h w : Fin 299) (k : Fin 4) :
    comp (val_main_v15 (F := Ideal) x0 x1) x2 b h w k = val_main_v30 (F := Ideal) x0 x1 x2 (ix4 b h w k) := by
  rcases k with ⟨kv, hkv⟩
  by_cases hk : kv < 3
  · show comp (val_main_v15 (F := Ideal) x0 x1) x2 b h w (up ⟨kv, hk⟩) = _
    rw [comp_colour]
    exact (rgba_colour x0 x1 x2 b h w ⟨kv, hk⟩).symm
  · obtain rfl : kv = 3 := by omega
    show comp (val_main_v15 (F := Ideal) x0 x1) x2 b h w 3 = _
    rw [comp_alpha]
    exact (rgba_alpha x0 x1 x2 b h w).symm

/-- The channel-first composite, moved back to pixel-interleaved, is the reference's composite. -/
theorem composite_back :
    transpose Cert.KernelIdeal.S16x299x299x4 [0, 2, 3, 1] (compPlanes (val_main_v15 (F := Ideal) x0 x1) x2)
        Cert.KernelIdeal.Gen.transposes_S16x4x299x299_S16x299x299x4_0_2_3_1
      = val_main_v30 (F := Ideal) x0 x1 x2 := by
  funext i
  obtain ⟨b, h, w, k, rfl⟩ : ∃ b h w k, i = ix4 b h w k := ⟨i 0, i 1, i 2, i 3, eq_ix4 i⟩
  rw [transpose_apply [0, 2, 3, 1] _ _ (ix4 b h w k) (ix4 b k h w)
    (fun a => match a with | ⟨0, _⟩ => rfl | ⟨1, _⟩ => rfl | ⟨2, _⟩ => rfl | ⟨3, _⟩ => rfl), compPlanes_at]
  exact comp_eq x0 x1 x2 b h w k

/-- The composite over white is the reference's third result. -/
theorem white_eq : whitePlanes (val_main_v15 (F := Ideal) x0 x1) x2 = val_main_v39 (F := Ideal) x0 x1 x2 := by
  funext j
  obtain ⟨b, k, h, w, rfl⟩ : ∃ b k h w, j = ix4 b k h w := ⟨j 0, j 1, j 2, j 3, eq_ix4 j⟩
  rw [whitePlanes_at, comp_eq, comp_eq, cla_at]
  rfl

/-- The original over white is the reference's fifth result. -/
theorem orig_eq : origPlanes x2 = val_main_v46 (F := Ideal) x2 := by
  funext j
  obtain ⟨b, k, h, w, rfl⟩ : ∃ b k h w, j = ix4 b k h w := ⟨j 0, j 1, j 2, j 3, eq_ix4 j⟩
  rw [origPlanes_at, oricla_at]
  rfl

end Cert.Agree

end
-- ==== Proof.KernelRun.lean ====
/-
  The idealized kernel's run, with every result named.

  The generated frame run ends with each array of the region at what the proof data computes and every other buffer at
  what the host operations after the region leave. Read here: the first result is untouched after the region (the host
  computed it before); the second is the tail's transpose of the composite's array; the third and fifth are the
  region's other two arrays; the fourth is the third argument. Under the precondition each is the reference's
  corresponding stage of the same arguments.
-/
import proofs.«413209_j10685878633070_3_alg».proof.Proof.Blocks
import proofs.«413209_j10685878633070_3_alg».proof.Proof.XBridge
import proofs.«413209_j10685878633070_3_alg».proof.Proof.Agree
import Idealize.ShloMosaic.Lib.StableHlo.Run

noncomputable section

namespace Cert.KernelIdeal.Results

open Cert.KernelIdeal Cert.KernelIdeal.Gen Cert.KernelIdeal.Prefix Cert.KernelIdeal.Blocks
open Idealize.ShloMosaic Idealize.ShloMosaic.TcCoe Idealize.SL.Sem Idealize.ShloMosaic.StableHlo
open Cert.ReferenceIdeal.Read

variable [Cert.Pre_finite_inputs.Facts]
variable (m : (ℓ : Loc nD τ sig) → Buf (Elt Ideal) ℓ) (ρ : Dev nD → PrngReg)

/-- Nothing after the region writes the first result's buffer. -/
theorem tail_x (c : Dev nD) :
    Pipeline.afterTail₀ cfgs (dats m) 0 (V0 m) [hostOps1] c main_v9 = V m c main_v9 := by
  unfold Pipeline.afterTail₀
  rw [StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v9 (by exact (by decide : ∀ w, Pipeline.arrRef spec0 w ≠ main_v9))]

/-- The second result: the composite's array moved back to pixel-interleaved. -/
theorem tail_rgba (c : Dev nD) :
    Pipeline.afterTail₀ cfgs (dats m) 0 (V0 m) [hostOps1] c main_v13
      = transpose S16x299x299x4 [0, 2, 3, 1] ((dats m 0 c).arrAt 2 cfg0.N) transposes_S16x4x299x299_S16x299x299x4_0_2_3_1 := by
  unfold Pipeline.afterTail₀
  show StableHlo.after hostOps1 _ (Proc.devRef .tc main_v13) = _
  after_results
  exact congrArg (fun v => transpose S16x299x299x4 [0, 2, 3, 1] v transposes_S16x4x299x299_S16x299x299x4_0_2_3_1)
    (Pipeline.withArrays_arr spec0 launch0.win.arr_inj c _ _ 2)

/-- Every weakly fair execution of the idealized kernel terminates with its five results at the reference's stages of
    the same arguments, and the arguments unchanged. -/
theorem run (hpre : ∀ c : Dev nD, Cert.Pre_finite_inputs.fn (F := Ideal) (m ((c.tc : Thread nD τ).loc main_arg0))
      (m ((c.tc : Thread nD τ).loc main_arg1)) (m ((c.tc : Thread nD τ).loc main_arg2)) = fun _ => 1#1) :
    θ_run defs (onTc (τ := τ) (main (F := Ideal))) ⟨m, fun _ => 0, ρ⟩ (fun r => ∀ c : Dev nD,
      r.2.mem ((c.tc : Thread nD τ).loc main_v9)
          = val_main_v15 (F := Ideal) (m ((c.tc : Thread nD τ).loc main_arg0)) (m ((c.tc : Thread nD τ).loc main_arg1))
      ∧ r.2.mem ((c.tc : Thread nD τ).loc main_v13)
          = val_main_v30 (F := Ideal) (m ((c.tc : Thread nD τ).loc main_arg0)) (m ((c.tc : Thread nD τ).loc main_arg1)) (m ((c.tc : Thread nD τ).loc main_arg2))
      ∧ r.2.mem ((c.tc : Thread nD τ).loc main_v12_1)
          = val_main_v39 (F := Ideal) (m ((c.tc : Thread nD τ).loc main_arg0)) (m ((c.tc : Thread nD τ).loc main_arg1)) (m ((c.tc : Thread nD τ).loc main_arg2))
      ∧ r.2.mem ((c.tc : Thread nD τ).loc main_arg2) = m ((c.tc : Thread nD τ).loc main_arg2)
      ∧ r.2.mem ((c.tc : Thread nD τ).loc main_v12_2) = val_main_v46 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have hx : (V m c main_v9 : S16x299x299x4.Idx → Elt Ideal .f32)
      = val_main_v15 (F := Ideal) (m ((c.tc : Thread nD τ).loc main_arg0)) (m ((c.tc : Thread nD τ).loc main_arg1)) :=
    (V_main_v9 m c).trans (Cert.KernelIdeal.XBridge.x_eq_ref _ _ _ (hpre c))
  have harg2 := ((h c).2 main_arg2 (Pipeline.mem_restRefs_of main_arg2 (by decide) (by decide))).trans (W_main_arg2 m (dats m) c)
  refine ⟨?_, ?_, ?_, harg2, ?_, ?_, ?_, harg2⟩
  · exact ((h c).2 main_v9 (Pipeline.mem_restRefs_of main_v9 (by decide) (by decide))).trans ((tail_x m c).trans hx)
  · refine ((h c).2 main_v13 (Pipeline.mem_restRefs_of main_v13 (by decide) (by decide))).trans ((tail_rgba m c).trans ?_)
    rw [final2]
    unfold gathered original
    rw [hx]
    exact Cert.Agree.composite_back _ _ _
  · refine ((h c).1 3).trans ((final3 m c).trans ?_)
    unfold gathered original
    rw [hx]
    exact Cert.Agree.white_eq _ _ _
  · refine ((h c).1 4).trans ((final4 m c).trans ?_)
    unfold original
    exact Cert.Agree.orig_eq _
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Results

end
-- ==== Proof.lean ====
/-
  The certificate of a gather-and-composite kernel against its jnp reference, over the extended reals.

  Both programs gather rows of a 200000-row RGBA table at index words carried in a float input, weight them, sum over
  8 neighbours to an image `x`, and composite `x` onto an original image: α = x_alpha / 255; a colour channel is
  o_c + x_c · α where the original's alpha is above zero and 0 elsewhere, clipped to [0, 255]; the alpha channel is the
  original's, clipped; and two white-backed views are returned beside it. The kernel does the compositing in ONE
  pallas_call over channel planes, a batch element per grid point, between transposes; the reference on interleaved
  pixels, with slices, selects, a concatenation and a clip.

  The one place the two differ is out-of-range indexing: the kernel's `take` returns a fill pattern for an index word
  outside the table (after counting a negative word from the end), the reference's plain indexing does not. The
  statement's precondition therefore carries, beside finiteness of the float inputs, that every index word lies in
  [-200000, 200000) — exactly where the reference's own indexing stays inside the table. There `take`'s test holds at
  every index and the two weighted sums are one term (XBridge); from there on the two programs apply the same
  operations to the same pixels in two layouts: the kernel's stores, read pixel by pixel (KernelPieces), assembled
  block by block into its output arrays (Blocks), are the reference's stages read at the same pixels (RefPixels, Agree).
  No algebraic law is needed beyond that: not distributivity, not finiteness.

  The three frames are the generated ones (the reference's is its generated run with the results dropped); the
  ideal pass rewrote nothing, so `preserves` is trivial.
-/
import proofs.«413209_j10685878633070_3_alg».proof.Defs
import proofs.«413209_j10685878633070_3_alg».proof.Proof.Gen.Kernel
import proofs.«413209_j10685878633070_3_alg».proof.Proof.Gen.Kernel.Skeleton
import proofs.«413209_j10685878633070_3_alg».proof.Proof.Gen.Kernel.Launch
import proofs.«413209_j10685878633070_3_alg».proof.Proof.Gen.Kernel.Points
import proofs.«413209_j10685878633070_3_alg».proof.Proof.Gen.Kernel.Frame
import proofs.«413209_j10685878633070_3_alg».proof.Proof.Gen.KernelIdeal
import proofs.«413209_j10685878633070_3_alg».proof.Proof.Gen.KernelIdeal.Skeleton
import proofs.«413209_j10685878633070_3_alg».proof.Proof.Gen.KernelIdeal.Launch
import proofs.«413209_j10685878633070_3_alg».proof.Proof.Gen.KernelIdeal.Points
import proofs.«413209_j10685878633070_3_alg».proof.Proof.Gen.KernelIdeal.Frame
import proofs.«413209_j10685878633070_3_alg».proof.Proof.Gen.ReferenceIdeal
import proofs.«413209_j10685878633070_3_alg».proof.Proof.Gen.Pre_finite_inputs
import proofs.«413209_j10685878633070_3_alg».proof.Proof.Gen.ReferenceIdeal.Run
import proofs.«413209_j10685878633070_3_alg».proof.Proof.Gen.ReferenceIdeal.Read
import proofs.«413209_j10685878633070_3_alg».proof.Proof.KernelRun
import Idealize.ShloMosaic.Adequacy
import Idealize.ShloMosaic.Init

noncomputable section

namespace Cert.Proof

open Idealize.ShloMosaic Idealize.SL.Sem Idealize.ShloMosaic.TcCoe
open Cert.ReferenceIdeal.Read

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the results dropped. -/
theorem frame_reference : Cert.frame_ReferenceIdeal := fun m ρ _ =>
  (θ_run Cert.ReferenceIdeal.defs _ _).mono
    (fun _ h c => ⟨(h c).2.2.2.2.2.1, (h c).2.2.2.2.2.2.1, (h c).2.2.2.2.2.2.2⟩)
    (Cert.ReferenceIdeal.Value.run (F := Ideal) m ρ)

/-- The ideal pass rewrote no operation. -/
theorem preserves : Cert.preserves_Kernel_KernelIdeal := trivial

/-- From memories agreeing on the arguments both idealized programs run, to the same five results: the reference's
    stages of the kernel's arguments. -/
theorem algebraic : Cert.algebraic_KernelIdeal_ReferenceIdeal := by
  intro m ρ m' ρ' hpre hagree
  refine ⟨fun c => val_main_v15 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun c => val_main_v30 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => val_main_v39 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg2),
    fun c => val_main_v46 (F := Ideal) (m ((c.tc : Thread Cert.KernelIdeal.nD Cert.KernelIdeal.τ).loc Cert.KernelIdeal.main_arg2)),
    Cert.KernelIdeal.Results.run m ρ hpre, ?_⟩
  refine (θ_run Cert.ReferenceIdeal.defs _ _).mono (fun r h c => ?_) (Cert.ReferenceIdeal.Value.run (F := Ideal) m' ρ')
  obtain ⟨h1, h2, h3, h4, h5, h6, h7, h8⟩ := h c
  obtain ⟨e0, e1, e2⟩ := hagree c
  refine ⟨?_, ?_, ?_, ?_, ?_, h6, h7, h8⟩
  · exact h1.trans ((val_main_v15_eq _ _).trans (by rw [e0, e1]))
  · exact h2.trans ((val_main_v30_eq m' c).trans (by rw [e0, e1, e2]))
  · exact h3.trans ((val_main_v39_eq m' c).trans (by rw [e0, e1, e2]))
  · exact h4.trans e2
  · exact h5.trans ((val_main_v46_eq _).trans (by rw [e2]))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
